-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x256 : Shape := ⟨2, ![524288, 256]⟩
abbrev S524288 : Shape := ⟨1, ![524288]⟩
abbrev S19x256 : Shape := ⟨2, ![19, 256]⟩
abbrev S19 : Shape := ⟨1, ![19]⟩
abbrev S_ : Shape := ⟨0, ![]⟩

class Facts : Prop where
  bcast_S_S524288x256 : S_.BroadcastsInDim S524288x256 (![] : Fin 0 → Fin S524288x256.rank)
  reducesTo_S524288x256_S_d0_1 : S524288x256.ReducesTo [0, 1] S_
  h_S_ : 0 < S_.numel
  bcast_S_S19x256 : S_.BroadcastsInDim S19x256 (![] : Fin 0 → Fin S19x256.rank)
  reducesTo_S19x256_S_d0_1 : S19x256.ReducesTo [0, 1] S_
  bcast_S_S19 : S_.BroadcastsInDim S19 (![] : Fin 0 → Fin S19.rank)
  reducesTo_S19_S_d0 : S19.ReducesTo [0] S_

variable [Facts]

def fn_part1 {F : FTy → Type} [FloatOps F] (main_v13 : IVec S_ 1) (main_v16 : IVec S19 1) : IVec S_ 1 :=
  let main_c_5 : IVec S_ 1 := constantI S_ 1 1#1
  let main_v17 : IVec S_ 1 := (fun x v => Host.reduce IntOp.andi x v reducesTo_S19_S_d0 h_S_) main_v16 main_c_5
  let main_v18 : IVec S_ 1 := andi main_v13 main_v17
  main_v18

def fn {F : FTy → Type} [FloatOps F] (main_arg0 : FVec F S524288x256 .f32) (main_arg1 : IVec S524288 32) (main_arg2 : FVec F S19x256 .f32) (main_arg3 : FVec F S19x256 .f32) (main_arg4 : FVec F S19 .f32) : IVec S_ 1 :=
  let main_v0 : FVec F S524288x256 .f32 := Host.absf main_arg0
  let main_cst : FVec F S_ .f32 := constant S_ .f32 0x7F800000#32
  let main_v1 : FVec F S524288x256 .f32 := broadcastInDim S524288x256 ![] bcast_S_S524288x256 main_cst
  let main_v2 : IVec S524288x256 1 := cmpf .olt main_v0 main_v1
  let main_c : IVec S_ 1 := constantI S_ 1 1#1
  let main_v3 : IVec S_ 1 := (fun x v => Host.reduce IntOp.andi x v reducesTo_S524288x256_S_d0_1 h_S_) main_v2 main_c
  let main_v4 : FVec F S19x256 .f32 := Host.absf main_arg2
  let main_cst_0 : FVec F S_ .f32 := constant S_ .f32 0x7F800000#32
  let main_v5 : FVec F S19x256 .f32 := broadcastInDim S19x256 ![] bcast_S_S19x256 main_cst_0
  let main_v6 : IVec S19x256 1 := cmpf .olt main_v4 main_v5
  let main_c_1 : IVec S_ 1 := constantI S_ 1 1#1
  let main_v7 : IVec S_ 1 := (fun x v => Host.reduce IntOp.andi x v reducesTo_S19x256_S_d0_1 h_S_) main_v6 main_c_1
  let main_v8 : IVec S_ 1 := andi main_v3 main_v7
  let main_v9 : FVec F S19x256 .f32 := Host.absf main_arg3
  let main_cst_2 : FVec F S_ .f32 := constant S_ .f32 0x7F800000#32
  let main_v10 : FVec F S19x256 .f32 := broadcastInDim S19x256 ![] bcast_S_S19x256 main_cst_2
  let main_v11 : IVec S19x256 1 := cmpf .olt main_v9 main_v10
  let main_c_3 : IVec S_ 1 := constantI S_ 1 1#1
  let main_v12 : IVec S_ 1 := (fun x v => Host.reduce IntOp.andi x v reducesTo_S19x256_S_d0_1 h_S_) main_v11 main_c_3
  let main_v13 : IVec S_ 1 := andi main_v8 main_v12
  let main_v14 : FVec F S19 .f32 := Host.absf main_arg4
  let main_cst_4 : FVec F S_ .f32 := constant S_ .f32 0x7F800000#32
  let main_v15 : FVec F S19 .f32 := broadcastInDim S19 ![] bcast_S_S19 main_cst_4
  let main_v16 : IVec S19 1 := cmpf .olt main_v14 main_v15
  fn_part1 (F := F) main_v13 main_v16
-- ==== Kernel.lean ====
abbrev S524288x256 : Shape := ⟨2, ![524288, 256]⟩
abbrev S524288 : Shape := ⟨1, ![524288]⟩
abbrev S19x256 : Shape := ⟨2, ![19, 256]⟩
abbrev S19 : Shape := ⟨1, ![19]⟩
abbrev S1x524288 : Shape := ⟨2, ![1, 524288]⟩
abbrev S19x1 : Shape := ⟨2, ![19, 1]⟩
abbrev S19x513 : Shape := ⟨2, ![19, 513]⟩
abbrev S8192x256 : Shape := ⟨2, ![8192, 256]⟩
abbrev S1x8192 : Shape := ⟨2, ![1, 8192]⟩
abbrev S24x256 : Shape := ⟨2, ![24, 256]⟩
abbrev S24x1 : Shape := ⟨2, ![24, 1]⟩
abbrev S24x8192 : Shape := ⟨2, ![24, 8192]⟩
abbrev S24 : Shape := ⟨1, ![24]⟩

abbrev nBuf : Space → Nat
  | .hbm => 8
  | .vmem => 11
  | .smem => 0
  | _ => 0

abbrev bufTy : (tb : Table) → Fin (tcTables nBuf tb) → BufTy
  | .hbm, ⟨0, _⟩ => ⟨S524288x256, .f32⟩
  | .hbm, ⟨1, _⟩ => ⟨S524288, .i32⟩
  | .hbm, ⟨2, _⟩ => ⟨S19x256, .f32⟩
  | .hbm, ⟨3, _⟩ => ⟨S19x256, .f32⟩
  | .hbm, ⟨4, _⟩ => ⟨S19, .f32⟩
  | .hbm, ⟨5, _⟩ => ⟨S1x524288, .i32⟩
  | .hbm, ⟨6, _⟩ => ⟨S19x1, .f32⟩
  | .hbm, ⟨7, _⟩ => ⟨S19x513, .f32⟩
  | .local _ .vmem, ⟨0, _⟩ => ⟨S8192x256, .f32⟩
  | .local _ .vmem, ⟨1, _⟩ => ⟨S8192x256, .f32⟩
  | .local _ .vmem, ⟨2, _⟩ => ⟨S1x8192, .i32⟩
  | .local _ .vmem, ⟨3, _⟩ => ⟨S1x8192, .i32⟩
  | .local _ .vmem, ⟨4, _⟩ => ⟨S19x256, .f32⟩
  | .local _ .vmem, ⟨5, _⟩ => ⟨S19x256, .f32⟩
  | .local _ .vmem, ⟨6, _⟩ => ⟨S19x1, .f32⟩
  | .local _ .vmem, ⟨7, _⟩ => ⟨S19x513, .f32⟩
  | .local _ .vmem, ⟨8, _⟩ => ⟨S24x256, .f32⟩
  | .local _ .vmem, ⟨9, _⟩ => ⟨S24x256, .f32⟩
  | .local _ .vmem, ⟨10, _⟩ => ⟨S24x1, .f32⟩
  | _, _ => ⟨S524288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v36 : BitVec 1 := Scalar.cmpi .eq arg0 c63_i32
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S19x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S19x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S19x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S19x513 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S524288_S1x524288 : S524288.ShapeCasts S1x524288
  shapeCasts_S19_S19x1 : S19.ShapeCasts S19x1
  inb_S24x256_S24x256_0_0 : ∀ a, (![0, 0] : Fin 2 → Nat) a + S24x256.size a ≤ S24x256.size a
  h_S24x256 : 0 < S24x256.numel
  shapeCasts_S24x256_S24x256 : S24x256.ShapeCasts S24x256
  inb_S24x1_S24x1_0_0 : ∀ a, (![0, 0] : Fin 2 → Nat) a + S24x1.size a ≤ S24x1.size a
  h_S24x1 : 0 < S24x1.numel
  shapeCasts_S24x1_S24x1 : S24x1.ShapeCasts S24x1
  inb_S8192x256_S8192x256_0_0 : ∀ a, (![0, 0] : Fin 2 → Nat) a + S8192x256.size a ≤ S8192x256.size a
  h_S8192x256 : 0 < S8192x256.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  iota_S24x1_d0_w32 : S24x1.Iotas .tc 32 [0]
  broadcasts_S24x1_S24x8192 : S24x1.Broadcasts S24x8192
  broadcasts_S1x8192_S24x8192 : S1x8192.Broadcasts S24x8192
  natLt_1_32 : 1 < 32
  bitsLt_bf16_f32 : FTy.bits .bf16 < FTy.bits .f32
  reduces_S24x8192_S24 : S24x8192.Reduces [1] S24
  shapeCasts_S24_S24x1 : S24.ShapeCasts S24x1
  inb_S24x1_S19x1_0_0 : ∀ a, (![0, 0] : Fin 2 → Nat) a + S19x1.size a ≤ S24x1.size a
  h_S19x1 : 0 < S19x1.numel
  inb_S24x256_S19x256_0_0 : ∀ a, (![0, 0] : Fin 2 → Nat) a + S19x256.size a ≤ S24x256.size a
  h_S19x256 : 0 < S19x256.numel
  broadcasts_S19x1_S19x256 : S19x1.Broadcasts S19x256
  inb_S19x256_S19x256_0_0 : ∀ a, (![0, 0] : Fin 2 → Nat) a + S19x256.size a ≤ S19x256.size a
  inb_S19x1_S19x1_0_0 : ∀ a, (![0, 0] : Fin 2 → Nat) a + S19x1.size a ≤ S19x1.size a
  shapeCasts_S19x1_S19x1 : S19x1.ShapeCasts S19x1
  inb_S19x513_S19x256_0_0 : ∀ a, (![0, 0] : Fin 2 → Nat) a + S19x256.size a ≤ S19x513.size a
  inb_S19x513_S19x256_0_256 : ∀ a, (![0, 256] : Fin 2 → Nat) a + S19x256.size a ≤ S19x513.size a
  inb_S19x513_S19x1_0_512 : ∀ a, (![0, 512] : Fin 2 → Nat) a + S19x1.size a ≤ S19x513.size a
  dot_S24x8192_S8192x256_S24x256_1_0_0_1_n_n_wf : DotDims.WF S24x8192 S8192x256 S24x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S524288x256.size a
  hwx0_0 : ∀ i : grid0.Coords, EltTy.bits .f32 = 32 ∨ (Rect.block (s := S524288x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x524288.size a
  hwx0_1 : ∀ i : grid0.Coords, EltTy.bits .i32 = 32 ∨ (Rect.block (s := S1x524288) S1x8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S19x256.size a ≤ S19x256.size a
  hwx0_2 : ∀ i : grid0.Coords, EltTy.bits .f32 = 32 ∨ (Rect.block (s := S19x256) S19x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S19x256.size a ≤ S19x256.size a
  hwx0_3 : ∀ i : grid0.Coords, EltTy.bits .f32 = 32 ∨ (Rect.block (s := S19x256) S19x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S19x1.size a ≤ S19x1.size a
  hwx0_4 : ∀ i : grid0.Coords, EltTy.bits .f32 = 32 ∨ (Rect.block (s := S19x1) S19x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S19x513.size a ≤ S19x513.size a
  hwx0_5 : ∀ i : grid0.Coords, EltTy.bits .f32 = 32 ∨ (Rect.block (s := S19x513) S19x513.size (cc0_transform_5 i) (hinb0_5 i)).WholeWords (EltTy.packing .f32)

variable [Facts₀]

def dot_S24x8192_S8192x256_S24x256_1_0_0_1_n_n : DotDims S24x8192 S8192x256 S24x256 where
  lhsContracting := [1]
  rhsContracting := [0]
  lhsNonContracting := [0]
  rhsNonContracting := [1]
  lhsBatch := []
  rhsBatch := []
  wf := dot_S24x8192_S8192x256_S24x256_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S19x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S19x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S19x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S19x513.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S524288x256 : Shape := ⟨2, ![524288, 256]⟩
abbrev S524288 : Shape := ⟨1, ![524288]⟩
abbrev S19x256 : Shape := ⟨2, ![19, 256]⟩
abbrev S19 : Shape := ⟨1, ![19]⟩
abbrev S_ : Shape := ⟨0, ![]⟩
abbrev S524288x1 : Shape := ⟨2, ![524288, 1]⟩
abbrev S19x1 : Shape := ⟨2, ![19, 1]⟩
abbrev S19x513 : Shape := ⟨2, ![19, 513]⟩

abbrev nBuf : Space → Nat
  | .hbm => 89
  | .vmem => 0
  | .smem => 0
  | _ => 0

abbrev bufTy : (tb : Table) → Fin (tcTables nBuf tb) → BufTy
  | .hbm, ⟨0, _⟩ => ⟨S524288x256, .f32⟩
  | .hbm, ⟨1, _⟩ => ⟨S524288, .i32⟩
  | .hbm, ⟨2, _⟩ => ⟨S19x256, .f32⟩
  | .hbm, ⟨3, _⟩ => ⟨S19x256, .f32⟩
  | .hbm, ⟨4, _⟩ => ⟨S19, .f32⟩
  | .hbm, ⟨5, _⟩ => ⟨S_, .i32⟩
  | .hbm, ⟨6, _⟩ => ⟨S524288, .i32⟩
  | .hbm, ⟨7, _⟩ => ⟨S524288, .i1⟩
  | .hbm, ⟨8, _⟩ => ⟨S_, .i32⟩
  | .hbm, ⟨9, _⟩ => ⟨S_, .i32⟩
  | .hbm, ⟨10, _⟩ => ⟨S524288, .i32⟩
  | .hbm, ⟨11, _⟩ => ⟨S524288, .i32⟩
  | .hbm, ⟨12, _⟩ => ⟨S524288, .f32⟩
  | .hbm, ⟨13, _⟩ => ⟨S524288x1, .f32⟩
  | .hbm, ⟨14, _⟩ => ⟨S524288, .f32⟩
  | .hbm, ⟨15, _⟩ => ⟨S_, .f32⟩
  | .hbm, ⟨16, _⟩ => ⟨S19, .f32⟩
  | .hbm, ⟨17, _⟩ => ⟨S524288x1, .i32⟩
  | .hbm, ⟨18, _⟩ => ⟨S19, .f32⟩
  | .hbm, ⟨19, _⟩ => ⟨S_, .f32⟩
  | .hbm, ⟨20, _⟩ => ⟨S19, .f32⟩
  | .hbm, ⟨21, _⟩ => ⟨S19, .f32⟩
  | .hbm, ⟨22, _⟩ => ⟨S524288x256, .f32⟩
  | .hbm, ⟨23, _⟩ => ⟨S524288x256, .f32⟩
  | .hbm, ⟨24, _⟩ => ⟨S_, .f32⟩
  | .hbm, ⟨25, _⟩ => ⟨S19x256, .f32⟩
  | .hbm, ⟨26, _⟩ => ⟨S524288x1, .i32⟩
  | .hbm, ⟨27, _⟩ => ⟨S19x256, .f32⟩
  | .hbm, ⟨28, _⟩ => ⟨S19x1, .f32⟩
  | .hbm, ⟨29, _⟩ => ⟨S19x256, .f32⟩
  | .hbm, ⟨30, _⟩ => ⟨S19x256, .f32⟩
  | .hbm, ⟨31, _⟩ => ⟨S_, .i32⟩
  | .hbm, ⟨32, _⟩ => ⟨S524288, .i32⟩
  | .hbm, ⟨33, _⟩ => ⟨S524288, .i1⟩
  | .hbm, ⟨34, _⟩ => ⟨S_, .i32⟩
  | .hbm, ⟨35, _⟩ => ⟨S524288, .i32⟩
  | .hbm, ⟨36, _⟩ => ⟨S524288, .i32⟩
  | .hbm, ⟨37, _⟩ => ⟨S524288, .i32⟩
  | .hbm, ⟨38, _⟩ => ⟨S524288x1, .i32⟩
  | .hbm, ⟨39, _⟩ => ⟨S524288x256, .f32⟩
  | .hbm, ⟨40, _⟩ => ⟨S524288x256, .f32⟩
  | .hbm, ⟨41, _⟩ => ⟨S524288x256, .f32⟩
  | .hbm, ⟨42, _⟩ => ⟨S524288x256, .f32⟩
  | .hbm, ⟨43, _⟩ => ⟨S524288x256, .f32⟩
  | .hbm, ⟨44, _⟩ => ⟨S_, .f32⟩
  | .hbm, ⟨45, _⟩ => ⟨S19x256, .f32⟩
  | .hbm, ⟨46, _⟩ => ⟨S524288x1, .i32⟩
  | .hbm, ⟨47, _⟩ => ⟨S19x256, .f32⟩
  | .hbm, ⟨48, _⟩ => ⟨S19x1, .f32⟩
  | .hbm, ⟨49, _⟩ => ⟨S19x256, .f32⟩
  | .hbm, ⟨50, _⟩ => ⟨S19x256, .f32⟩
  | .hbm, ⟨51, _⟩ => ⟨S19x1, .f32⟩
  | .hbm, ⟨52, _⟩ => ⟨S19x1, .f32⟩
  | .hbm, ⟨53, _⟩ => ⟨S19x1, .f32⟩
  | .hbm, ⟨54, _⟩ => ⟨S19x1, .f32⟩
  | .hbm, ⟨55, _⟩ => ⟨S19x1, .f32⟩
  | .hbm, ⟨56, _⟩ => ⟨S19x1, .i1⟩
  | .hbm, ⟨57, _⟩ => ⟨S_, .f32⟩
  | .hbm, ⟨58, _⟩ => ⟨S_, .f32⟩
  | .hbm, ⟨59, _⟩ => ⟨S19x1, .f32⟩
  | .hbm, ⟨60, _⟩ => ⟨S19x1, .f32⟩
  | .hbm, ⟨61, _⟩ => ⟨S_, .f32⟩
  | .hbm, ⟨62, _⟩ => ⟨S19x1, .f32⟩
  | .hbm, ⟨63, _⟩ => ⟨S19x1, .f32⟩
  | .hbm, ⟨64, _⟩ => ⟨S19x1, .f32⟩
  | .hbm, ⟨65, _⟩ => ⟨S19x256, .f32⟩
  | .hbm, ⟨66, _⟩ => ⟨S19x256, .f32⟩
  | .hbm, ⟨67, _⟩ => ⟨S19x256, .f32⟩
  | .hbm, ⟨68, _⟩ => ⟨S19x256, .f32⟩
  | .hbm, ⟨69, _⟩ => ⟨S_, .f32⟩
  | .hbm, ⟨70, _⟩ => ⟨S19x1, .f32⟩
  | .hbm, ⟨71, _⟩ => ⟨S19x1, .f32⟩
  | .hbm, ⟨72, _⟩ => ⟨S19x256, .f32⟩
  | .hbm, ⟨73, _⟩ => ⟨S19x256, .f32⟩
  | .hbm, ⟨74, _⟩ => ⟨S19x256, .f32⟩
  | .hbm, ⟨75, _⟩ => ⟨S19x256, .f32⟩
  | .hbm, ⟨76, _⟩ => ⟨S19x256, .f32⟩
  | .hbm, ⟨77, _⟩ => ⟨S19x256, .f32⟩
  | .hbm, ⟨78, _⟩ => ⟨S_, .f32⟩
  | .hbm, ⟨79, _⟩ => ⟨S19x1, .f32⟩
  | .hbm, ⟨80, _⟩ => ⟨S19x1, .f32⟩
  | .hbm, ⟨81, _⟩ => ⟨S19x256, .f32⟩
  | .hbm, ⟨82, _⟩ => ⟨S19x256, .f32⟩
  | .hbm, ⟨83, _⟩ => ⟨S19x256, .f32⟩
  | .hbm, ⟨84, _⟩ => ⟨S19x256, .f32⟩
  | .hbm, ⟨85, _⟩ => ⟨S19x256, .f32⟩
  | .hbm, ⟨86, _⟩ => ⟨S19, .f32⟩
  | .hbm, ⟨87, _⟩ => ⟨S19x1, .f32⟩
  | .hbm, ⟨88, _⟩ => ⟨S19x513, .f32⟩
  | _, _ => ⟨S524288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_call1_v0 : Ref sig .tc := ⟨.hbm, 58, rfl⟩
abbrev main_call1_v1 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  shapeCasts_S524288x1_S524288 : S524288x1.ShapeCasts S524288
  bcast_S_S19 : S_.BroadcastsInDim S19 (![] : Fin 0 → Fin S19.rank)
  bcast_S524288x1_S524288x256_0_1 : S524288x1.BroadcastsInDim S524288x256 (![0, 1] : Fin 2 → Fin S524288x256.rank)
  bcast_S_S19x256 : S_.BroadcastsInDim S19x256 (![] : Fin 0 → Fin S19x256.rank)
  bcast_S19_S19x1_0 : S19.BroadcastsInDim S19x1 (![0] : Fin 1 → Fin S19x1.rank)
  bcast_S19x1_S19x256_0_1 : S19x1.BroadcastsInDim S19x256 (![0, 1] : Fin 2 → Fin S19x256.rank)
  bcast_S_S19x1 : S_.BroadcastsInDim S19x1 (![] : Fin 0 → Fin S19x1.rank)
  concatenates_S19x256_S19x256_S19x1_S19x513_d1 : Shape.Concatenates [S19x256, S19x256, S19x1] S19x513 1
  scatter_S19_S524288x1_S524288_n_0_0_1_wf : ScatterDims.WF S19 S524288x1 S524288 [] [0] [0] 1
  scatter_S19x256_S524288x1_S524288x256_1_0_0_1_wf : ScatterDims.WF S19x256 S524288x1 S524288x256 [1] [0] [0] 1
  gather_S19x256_S524288x1_S524288x256_1_0_n_n_0_1_1256_wf : GatherDims.WF S19x256 S524288x1 S524288x256 [1] [0] [] [0] [] 1 ![1, 256]

variable [Facts₀]

def scatter_S19_S524288x1_S524288_n_0_0_1 : ScatterDims S19 S524288x1 S524288 where
  updateWindowDims := []
  insertedWindowDims := [0]
  scatterDimsToOperandDims := [0]
  indexVectorDim := 1
  wf := scatter_S19_S524288x1_S524288_n_0_0_1_wf
def scatter_S19x256_S524288x1_S524288x256_1_0_0_1 : ScatterDims S19x256 S524288x1 S524288x256 where
  updateWindowDims := [1]
  insertedWindowDims := [0]
  scatterDimsToOperandDims := [0]
  indexVectorDim := 1
  wf := scatter_S19x256_S524288x1_S524288x256_1_0_0_1_wf
def gather_S19x256_S524288x1_S524288x256_1_0_n_n_0_1_1256 : GatherDims S19x256 S524288x1 S524288x256 where
  offsetDims := [1]
  collapsedSliceDims := [0]
  operandBatchingDims := []
  startIndicesBatchingDims := []
  startIndexMap := [0]
  indexVectorDim := 1
  sliceSizes := ![1, 256]
  wf := gather_S19x256_S524288x1_S524288x256_1_0_n_n_0_1_1256_wf

class Facts : Prop extends Facts₀ where

variable [Facts]
-- ==== Proof.Finite.lean ====
/-
  Under the precondition every feature is a real number: the precondition's first conjunct says |x| < +∞ at every
  index of the feature array, and an extended real of finite absolute value is a real.
-/
import proofs.«400048_j47802986004511_1_alg».proof.Pre_finite_inputs
import Idealize.ShloMosaic.Lib.ReduceAll
import Idealize.ShloMosaic.Lib.ValueIdx

noncomputable section

namespace Cert.ClassStats

open Idealize.ShloMosaic Idealize.ShloMosaic.ValueIdx

/-- The scalar shape has one index. -/
private instance : Subsingleton Cert.Pre_finite_inputs.S_.Idx := ⟨fun a b => funext fun d => d.elim0⟩

/-- The word 0x7F800000 (sign 0, exponent all ones, fraction 0) denotes +∞. -/
private theorem ofBits_inf : Ideal.ofBits .f32 0x7F800000#32 = (⊤ : EReal) := by
  simp [Ideal.ofBits, Ideal.ieee]

/-- An extended real whose absolute value max(x, −x) is below +∞ is a real number: the absolute value of either
    infinity is +∞. -/
private theorem real_of_abs_lt_top (x : EReal) (hx : max x (-x) < ⊤) : ∃ r : ℝ, x = ((r : ℝ) : EReal) := by
  induction x using EReal.rec with
  | bot => simp at hx
  | coe r => exact ⟨r, rfl⟩
  | top => simp at hx

/-- If the precondition holds of the five argument arrays at the ideal instance, every entry of the feature array is a
    real number. -/
theorem features_real [Cert.Pre_finite_inputs.Facts]
    (a0 : FVec Ideal Cert.Pre_finite_inputs.S524288x256 .f32) (a1 : IVec Cert.Pre_finite_inputs.S524288 32)
    (a2 a3 : FVec Ideal Cert.Pre_finite_inputs.S19x256 .f32) (a4 : FVec Ideal Cert.Pre_finite_inputs.S19 .f32)
    (h : Cert.Pre_finite_inputs.fn (F := Ideal) a0 a1 a2 a3 a4 = (fun _ => 1#1)) :
    ∀ i, ∃ r : ℝ, a0 i = ((r : ℝ) : EReal) := by
  intro i
  -- the precondition at its one index: a conjunction ((p₀ ∧ p₂) ∧ p₃) ∧ p₄ of the four arrays' "all finite"
  have h0 := congrFun h ValueIdx.ix0
  dsimp only [Cert.Pre_finite_inputs.fn, Cert.Pre_finite_inputs.fn_part1] at h0
  -- its first conjunct p₀, the feature array's
  have h1 := (IntOp.andi_eq_one.1 h0).1
  have h2 := (IntOp.andi_eq_one.1 h1).1
  have h3 := (IntOp.andi_eq_one.1 h2).1
  -- a conjunction over all indices that holds, holds at i: |a0 i| < the value of the word 0x7F800000
  have hi := Host.reduce_andi_all _ _ _ _ _ h3 i
  change Ideal.cmp .olt (max (a0 i : EReal) (-(a0 i : EReal))) (Ideal.ofBits .f32 0x7F800000#32) = 1#1 at hi
  rw [ofBits_inf] at hi
  refine real_of_abs_lt_top (a0 i) ?_
  by_contra hn
  simp [Ideal.cmp, hn] at hi

end Cert.ClassStats

end
-- ==== Proof.KOut.lean ====
/-
  What the last grid point leaves in the output block [19 × 513]: three stores side by side — the merged covariance in
  columns 0 … 255, the merged mean in columns 256 … 511, the merged amount in column 512 — each computed from the first
  19 rows of the three carried scratch buffers AFTER this point's own update of them, and from the stored statistics.
-/
import proofs.«400048_j47802986004511_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.OutPiece

open Cert.KernelIdeal Cert.KernelIdeal.Gen Idealize.ShloMosaic.ValueIdx

variable {F : FTy → Type} [FloatOps F]

/-- The zero offsets of a whole-buffer rectangle, spelt as the constant function. -/
theorem hz : (![0, 0] : Fin 2 → Nat) = fun _ => 0 := funext fun a => by fin_cases a <;> rfl

/-- The first 19 rows of a 24-row block of 256 columns (the classes that exist; rows 19 … 23 are padding). -/
abbrev top256 (X : Vec F S24x256 .f32) : Vec F S19x256 .f32 :=
  View.ld X (Rect.unit (s := S24x256) ![0, 0] S19x256.size inb_S24x256_S19x256_0_0)

/-- The first 19 rows of a 24-row column. -/
abbrev top1 (X : Vec F S24x1 .f32) : Vec F S19x1 .f32 :=
  View.ld X (Rect.unit (s := S24x1) ![0, 0] S19x1.size inb_S24x1_S19x1_0_0)

/-- Row `c` of the first 19 rows is row `c` of the block. -/
theorem top256_apply (X : Vec F S24x256 .f32) (c : Fin 19) (a : Fin 256) :
    top256 X (ix2 c a) = X (ix2 (⟨c.val, by omega⟩ : Fin 24) a) := by
  show X _ = X _
  congr 1
  funext d
  apply Fin.ext
  match d with
  | ⟨0, _⟩ => show 0 + 1 * c.val = c.val; omega
  | ⟨1, _⟩ => show 0 + 1 * a.val = a.val; omega

/-- Row `c` of the first 19 rows of a column is row `c` of the column. -/
theorem top1_apply (X : Vec F S24x1 .f32) (c : Fin 19) :
    top1 X (ix2 c (0 : Fin 1)) = X (ix2 (⟨c.val, by omega⟩ : Fin 24) (0 : Fin 1)) := by
  show X _ = X _
  congr 1
  funext d
  apply Fin.ext
  match d with
  | ⟨0, _⟩ => show 0 + 1 * c.val = c.val; omega
  | ⟨1, _⟩ => show 0 + 1 * 0 = 0; omega

/-- A load through any rectangle of what ONE whole-buffer store left reads the store's payload through that rectangle. -/
theorem readCov_whole_store {S : Shape} {e : EltTy} {Val : EltTy → Type} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩),
    View.canon_unit_zero h]

/-- Three blocks side by side: [19 × 256], [19 × 256], [19 × 1] as one [19 × 513] block, by the stores that wrote them
    (the last store first). -/
def sideBySide (left mid : Vec F S19x256 .f32) (right : Vec F S19x1 .f32) : Vec F S19x513 .f32 :=
  View.canon [(⟨Rect.unit (s := S19x513) ![0, 512] ![19, 1] inb_S19x513_S19x1_0_512, right⟩ : View.Piece (Elt F) S19x513 .f32),
    ⟨Rect.unit (s := S19x513) ![0, 256] ![19, 256] inb_S19x513_S19x256_0_256, mid⟩,
    ⟨Rect.unit (s := S19x513) ![0, 0] ![19, 256] inb_S19x513_S19x256_0_0, left⟩]

/-- THE LAST POINT'S OUTPUT BLOCK: the three merged statistics side by side, each a payload of the first 19 rows of the
    scratch buffers as this point's own accumulation leaves them. -/
theorem out_C (c : Dev nD) (i : grid0.Coords) (arg1 : Memref sig .tc .vmem S8192x256 .f32) (harg1 : arg1.IsWhole) (arg2 : Memref sig .tc .vmem S1x8192 .i32) (harg2 : arg2.IsWhole) (arg3 : Memref sig .tc .vmem S19x256 .f32) (harg3 : arg3.IsWhole) (arg4 : Memref sig .tc .vmem S19x256 .f32) (harg4 : arg4.IsWhole) (arg5 : Memref sig .tc .vmem S19x1 .f32) (harg5 : arg5.IsWhole) (arg6 : Memref sig .tc .vmem S19x513 .f32) (harg6 : arg6.IsWhole) (arg7 : Memref sig .tc .vmem S24x256 .f32) (harg7 : arg7.IsWhole) (arg8 : Memref sig .tc .vmem S24x256 .f32) (harg8 : arg8.IsWhole) (arg9 : Memref sig .tc .vmem S24x1 .f32) (harg9 : arg9.IsWhole) (hc0 : ¬cond0_0 i) (hc1 : cond0_1 i) (x0 : Vec F S8192x256 .f32) (x1 : Vec F S1x8192 .i32) (x2 : Vec F S19x256 .f32) (x3 : Vec F S19x256 .f32) (x4 : Vec F S19x1 .f32) (xs0 : Vec F S24x256 .f32) (xs1 : Vec F S24x256 .f32) (xs2 : Vec F S24x1 .f32) :
    out0_C_5 c i arg1 harg1 arg2 harg2 arg3 harg3 arg4 harg4 arg5 harg5 arg6 harg6 arg7 harg7 arg8 harg8 arg9 harg9 hc0 hc1 x0 x1 x2 x3 x4 xs0 xs1 xs2
      = sideBySide
          (k0_pay6 (top1 (k0_pay1 (k0_pay17 x1 xs2))) (top256 (k0_pay15 x0 x1 xs0)) (top256 (k0_pay16 x0 x1 xs1)) x2 x3 x4)
          (k0_pay7 (top1 (k0_pay1 (k0_pay17 x1 xs2))) (top256 (k0_pay15 x0 x1 xs0)) x2 x4)
          (k0_pay8 (top1 (k0_pay1 (k0_pay17 x1 xs2))) x4) := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  simp only [View.readAt_eq_ld, harg1.read_unread, harg2.read_unread, harg3.read_unread, harg4.read_unread,
    harg5.read_unread, harg7.read_unread, harg8.read_unread, harg9.read_unread,
    View.ld_unit_zero (S := S8192x256) hz, View.ld_unit_zero (S := S1x8192) hz, View.ld_unit_zero (S := S19x256) hz,
    View.ld_unit_zero (S := S19x1) hz, View.ld_unit_zero (S := S24x256) hz, View.ld_unit_zero (S := S24x1) hz,
    readCov_whole_store (S := S24x256) _ hz, readCov_whole_store (S := S24x1) _ hz]
  rfl

/-- A covariance column of the side-by-side block. -/
theorem sideBySide_left (left mid : Vec F S19x256 .f32) (right : Vec F S19x1 .f32) (c : Fin 19) (a : Fin 256) :
    sideBySide left mid right (ix2 c (⟨a.val, by omega⟩ : Fin 513)) = left (ix2 c a) := by
  have e : (ix2 c (⟨a.val, by omega⟩ : Fin 513) : S19x513.Idx)
      = (Rect.unit (s := S19x513) ![0, 0] ![19, 256] inb_S19x513_S19x256_0_0).emb (ix2 c a) := by
    funext d
    apply Fin.ext
    match d with
    | ⟨0, _⟩ => show c.val = 0 + 1 * c.val; omega
    | ⟨1, _⟩ => show a.val = 0 + 1 * a.val; omega
  unfold sideBySide
  rw [View.canon_cons_of_not_mem, View.canon_cons_of_not_mem, e, View.canon_cons_emb]
  · rw [Rect.mem_set_unit]
    intro h
    have := (h (1 : Fin 2)).1
    have h2 : (256 : Nat) ≤ a.val := this
    omega
  · rw [Rect.mem_set_unit]
    intro h
    have := (h (1 : Fin 2)).1
    have h2 : (512 : Nat) ≤ a.val := this
    omega

/-- A mean column of the side-by-side block. -/
theorem sideBySide_mid (left mid : Vec F S19x256 .f32) (right : Vec F S19x1 .f32) (c : Fin 19) (a : Fin 256) :
    sideBySide left mid right (ix2 c (⟨256 + a.val, by omega⟩ : Fin 513)) = mid (ix2 c a) := by
  have e : (ix2 c (⟨256 + a.val, by omega⟩ : Fin 513) : S19x513.Idx)
      = (Rect.unit (s := S19x513) ![0, 256] ![19, 256] inb_S19x513_S19x256_0_256).emb (ix2 c a) := by
    funext d
    apply Fin.ext
    match d with
    | ⟨0, _⟩ => show c.val = 0 + 1 * c.val; omega
    | ⟨1, _⟩ => show 256 + a.val = 256 + 1 * a.val; omega
  unfold sideBySide
  rw [View.canon_cons_of_not_mem, e, View.canon_cons_emb]
  rw [Rect.mem_set_unit]
  intro h
  have := (h (1 : Fin 2)).1
  have h2 : (512 : Nat) ≤ 256 + a.val := this
  omega

/-- The amount column of the side-by-side block. -/
theorem sideBySide_right (left mid : Vec F S19x256 .f32) (right : Vec F S19x1 .f32) (c : Fin 19) :
    sideBySide left mid right (ix2 c (⟨512, by omega⟩ : Fin 513)) = right (ix2 c (0 : Fin 1)) := by
  have e : (ix2 c (⟨512, by omega⟩ : Fin 513) : S19x513.Idx)
      = (Rect.unit (s := S19x513) ![0, 512] ![19, 1] inb_S19x513_S19x1_0_512).emb (ix2 c (0 : Fin 1)) := by
    funext d
    apply Fin.ext
    match d with
    | ⟨0, _⟩ => show c.val = 0 + 1 * c.val; omega
    | ⟨1, _⟩ => show 512 = 512 + 1 * 0; omega
  unfold sideBySide
  rw [e, View.canon_cons_emb]

/-! ## The last point

The output block after the last point, from the blocks it stages and what the point before left in the scratch. -/

variable (m : (ℓ : Loc nD τ sig) → Buf (Elt F) ℓ)

/-- After the last point the output block holds the three merged statistics side by side, computed from the first 19
    rows of the scratch buffers as the last tile's update leaves them. -/
theorem last_out (c : Dev nD) (t : Fin cfg0.N) (h0 : ¬t.val % 64 = 0) (h1 : t.val % 64 = 63) :
    (outsAt0 m c t.val t.isLt).1
      = sideBySide
          (k0_pay6 (top1 (k0_pay1 (k0_pay17 (iblk m c 1 t) (outsAt0 m c (t.val - 1) (Nat.lt_of_le_of_lt (Nat.sub_le _ _) t.isLt)).2.2.2)))
            (top256 (k0_pay15 (iblk m c 0 t) (iblk m c 1 t) (outsAt0 m c (t.val - 1) (Nat.lt_of_le_of_lt (Nat.sub_le _ _) t.isLt)).2.1))
            (top256 (k0_pay16 (iblk m c 0 t) (iblk m c 1 t) (outsAt0 m c (t.val - 1) (Nat.lt_of_le_of_lt (Nat.sub_le _ _) t.isLt)).2.2.1))
            (iblk m c 2 t) (iblk m c 3 t) (iblk m c 4 t))
          (k0_pay7 (top1 (k0_pay1 (k0_pay17 (iblk m c 1 t) (outsAt0 m c (t.val - 1) (Nat.lt_of_le_of_lt (Nat.sub_le _ _) t.isLt)).2.2.2)))
            (top256 (k0_pay15 (iblk m c 0 t) (iblk m c 1 t) (outsAt0 m c (t.val - 1) (Nat.lt_of_le_of_lt (Nat.sub_le _ _) t.isLt)).2.1))
            (iblk m c 2 t) (iblk m c 4 t))
          (k0_pay8 (top1 (k0_pay1 (k0_pay17 (iblk m c 1 t) (outsAt0 m c (t.val - 1) (Nat.lt_of_le_of_lt (Nat.sub_le _ _) t.isLt)).2.2.2))) (iblk m c 4 t)) := by
  rw [outsAt0_C m c t h0 h1]
  dsimp only
  exact out_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.OutPiece

end
-- ==== Proof.Pieces.lean ====
/-
  What one grid point leaves in the three scratch buffers the kernel carries from point to point — the per-class sums of
  the features, of their squares, and the per-class counts — as the body's payload terms: at the first point the update
  of a zero block, at every later point the update of what the point before left.
-/
import proofs.«400048_j47802986004511_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer rectangle, spelt as the constant function. -/
theorem hz : (![0, 0] : Fin 2 → Nat) = fun _ => 0 := funext fun a => by fin_cases a <;> rfl

/-- At a point that does not reset, the body leaves in the scratch holding the running per-class sums of the features the tile's update of what the
    point before left: its one covering store's payload, over loads of the whole buffers. -/
theorem scratch0_B (c : Dev nD) (i : grid0.Coords) (arg1 : Memref sig .tc .vmem S8192x256 .f32) (harg1 : arg1.IsWhole) (arg2 : Memref sig .tc .vmem S1x8192 .i32) (harg2 : arg2.IsWhole) (arg3 : Memref sig .tc .vmem S19x256 .f32) (harg3 : arg3.IsWhole) (arg4 : Memref sig .tc .vmem S19x256 .f32) (harg4 : arg4.IsWhole) (arg5 : Memref sig .tc .vmem S19x1 .f32) (harg5 : arg5.IsWhole) (arg6 : Memref sig .tc .vmem S19x513 .f32) (harg6 : arg6.IsWhole) (arg7 : Memref sig .tc .vmem S24x256 .f32) (harg7 : arg7.IsWhole) (arg8 : Memref sig .tc .vmem S24x256 .f32) (harg8 : arg8.IsWhole) (arg9 : Memref sig .tc .vmem S24x1 .f32) (harg9 : arg9.IsWhole) (hc0 : ¬cond0_0 i) (hc1 : ¬cond0_1 i) (x0 : Vec F S8192x256 .f32) (x1 : Vec F S1x8192 .i32) (x2 : Vec F S19x256 .f32) (x3 : Vec F S19x256 .f32) (x4 : Vec F S19x1 .f32) (xs0 : Vec F S24x256 .f32) (xs1 : Vec F S24x256 .f32) (xs2 : Vec F S24x1 .f32) :
    sout0_B_0 c i arg1 harg1 arg2 harg2 arg3 harg3 arg4 harg4 arg5 harg5 arg6 harg6 arg7 harg7 arg8 harg8 arg9 harg9 hc0 hc1 x0 x1 x2 x3 x4 xs0 xs1 xs2 = k0_pay15 x0 x1 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 xs0 xs1 xs2)]
  unfold kernelRun0_B
  dsimp only
  sl_unfold_words
  rw [View.canon_unit_zero hz]
  simp only [View.readAt_eq_ld, harg1.read_unread, harg2.read_unread, harg7.read_unread,
    View.ld_unit_zero (S := S8192x256) hz, View.ld_unit_zero (S := S1x8192) hz, View.ld_unit_zero (S := S24x256) hz]

/-- At a point that does not reset, the body leaves in the scratch holding the running per-class sums of the squared features the tile's update of what the
    point before left: its one covering store's payload, over loads of the whole buffers. -/
theorem scratch1_B (c : Dev nD) (i : grid0.Coords) (arg1 : Memref sig .tc .vmem S8192x256 .f32) (harg1 : arg1.IsWhole) (arg2 : Memref sig .tc .vmem S1x8192 .i32) (harg2 : arg2.IsWhole) (arg3 : Memref sig .tc .vmem S19x256 .f32) (harg3 : arg3.IsWhole) (arg4 : Memref sig .tc .vmem S19x256 .f32) (harg4 : arg4.IsWhole) (arg5 : Memref sig .tc .vmem S19x1 .f32) (harg5 : arg5.IsWhole) (arg6 : Memref sig .tc .vmem S19x513 .f32) (harg6 : arg6.IsWhole) (arg7 : Memref sig .tc .vmem S24x256 .f32) (harg7 : arg7.IsWhole) (arg8 : Memref sig .tc .vmem S24x256 .f32) (harg8 : arg8.IsWhole) (arg9 : Memref sig .tc .vmem S24x1 .f32) (harg9 : arg9.IsWhole) (hc0 : ¬cond0_0 i) (hc1 : ¬cond0_1 i) (x0 : Vec F S8192x256 .f32) (x1 : Vec F S1x8192 .i32) (x2 : Vec F S19x256 .f32) (x3 : Vec F S19x256 .f32) (x4 : Vec F S19x1 .f32) (xs0 : Vec F S24x256 .f32) (xs1 : Vec F S24x256 .f32) (xs2 : Vec F S24x1 .f32) :
    sout0_B_1 c i arg1 harg1 arg2 harg2 arg3 harg3 arg4 harg4 arg5 harg5 arg6 harg6 arg7 harg7 arg8 harg8 arg9 harg9 hc0 hc1 x0 x1 x2 x3 x4 xs0 xs1 xs2 = k0_pay16 x0 x1 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 xs0 xs1 xs2)]
  unfold kernelRun0_B
  dsimp only
  sl_unfold_words
  rw [View.canon_unit_zero hz]
  simp only [View.readAt_eq_ld, harg1.read_unread, harg2.read_unread, harg8.read_unread,
    View.ld_unit_zero (S := S8192x256) hz, View.ld_unit_zero (S := S1x8192) hz, View.ld_unit_zero (S := S24x256) hz]

/-- At a point that does not reset, the body leaves in the scratch holding the running per-class counts the tile's update of what the
    point before left: its one covering store's payload, over loads of the whole buffers. -/
theorem scratch2_B (c : Dev nD) (i : grid0.Coords) (arg1 : Memref sig .tc .vmem S8192x256 .f32) (harg1 : arg1.IsWhole) (arg2 : Memref sig .tc .vmem S1x8192 .i32) (harg2 : arg2.IsWhole) (arg3 : Memref sig .tc .vmem S19x256 .f32) (harg3 : arg3.IsWhole) (arg4 : Memref sig .tc .vmem S19x256 .f32) (harg4 : arg4.IsWhole) (arg5 : Memref sig .tc .vmem S19x1 .f32) (harg5 : arg5.IsWhole) (arg6 : Memref sig .tc .vmem S19x513 .f32) (harg6 : arg6.IsWhole) (arg7 : Memref sig .tc .vmem S24x256 .f32) (harg7 : arg7.IsWhole) (arg8 : Memref sig .tc .vmem S24x256 .f32) (harg8 : arg8.IsWhole) (arg9 : Memref sig .tc .vmem S24x1 .f32) (harg9 : arg9.IsWhole) (hc0 : ¬cond0_0 i) (hc1 : ¬cond0_1 i) (x0 : Vec F S8192x256 .f32) (x1 : Vec F S1x8192 .i32) (x2 : Vec F S19x256 .f32) (x3 : Vec F S19x256 .f32) (x4 : Vec F S19x1 .f32) (xs0 : Vec F S24x256 .f32) (xs1 : Vec F S24x256 .f32) (xs2 : Vec F S24x1 .f32) :
    sout0_B_2 c i arg1 harg1 arg2 harg2 arg3 harg3 arg4 harg4 arg5 harg5 arg6 harg6 arg7 harg7 arg8 harg8 arg9 harg9 hc0 hc1 x0 x1 x2 x3 x4 xs0 xs1 xs2 = k0_pay1 (k0_pay17 x1 xs2) := by
  unfold sout0_B_2
  rw [View.read_writes_eq_canon _ _ _ (scover0_B_2 c i arg1 harg1 arg2 harg2 arg3 harg3 arg4 harg4 arg5 harg5 arg6 harg6 arg7 harg7 arg8 harg8 arg9 harg9 hc0 hc1 x0 x1 x2 x3 x4 xs0 xs1 xs2)]
  unfold kernelRun0_B
  dsimp only
  sl_unfold_words
  rw [View.canon_unit_zero hz]
  simp only [View.readAt_eq_ld, harg1.read_unread, harg2.read_unread, harg9.read_unread,
    View.ld_unit_zero (S := S8192x256) hz, View.ld_unit_zero (S := S1x8192) hz, View.ld_unit_zero (S := S24x1) hz]

/-- At a point that does not reset, the body leaves in the scratch holding the running per-class sums of the features the tile's update of what the
    point before left: its one covering store's payload, over loads of the whole buffers. -/
theorem scratch0_C (c : Dev nD) (i : grid0.Coords) (arg1 : Memref sig .tc .vmem S8192x256 .f32) (harg1 : arg1.IsWhole) (arg2 : Memref sig .tc .vmem S1x8192 .i32) (harg2 : arg2.IsWhole) (arg3 : Memref sig .tc .vmem S19x256 .f32) (harg3 : arg3.IsWhole) (arg4 : Memref sig .tc .vmem S19x256 .f32) (harg4 : arg4.IsWhole) (arg5 : Memref sig .tc .vmem S19x1 .f32) (harg5 : arg5.IsWhole) (arg6 : Memref sig .tc .vmem S19x513 .f32) (harg6 : arg6.IsWhole) (arg7 : Memref sig .tc .vmem S24x256 .f32) (harg7 : arg7.IsWhole) (arg8 : Memref sig .tc .vmem S24x256 .f32) (harg8 : arg8.IsWhole) (arg9 : Memref sig .tc .vmem S24x1 .f32) (harg9 : arg9.IsWhole) (hc0 : ¬cond0_0 i) (hc1 : cond0_1 i) (x0 : Vec F S8192x256 .f32) (x1 : Vec F S1x8192 .i32) (x2 : Vec F S19x256 .f32) (x3 : Vec F S19x256 .f32) (x4 : Vec F S19x1 .f32) (xs0 : Vec F S24x256 .f32) (xs1 : Vec F S24x256 .f32) (xs2 : Vec F S24x1 .f32) :
    sout0_C_0 c i arg1 harg1 arg2 harg2 arg3 harg3 arg4 harg4 arg5 harg5 arg6 harg6 arg7 harg7 arg8 harg8 arg9 harg9 hc0 hc1 x0 x1 x2 x3 x4 xs0 xs1 xs2 = k0_pay15 x0 x1 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero hz]
  simp only [View.readAt_eq_ld, harg1.read_unread, harg2.read_unread, harg7.read_unread,
    View.ld_unit_zero (S := S8192x256) hz, View.ld_unit_zero (S := S1x8192) hz, View.ld_unit_zero (S := S24x256) hz]

/-- At a point that does not reset, the body leaves in the scratch holding the running per-class sums of the squared features the tile's update of what the
    point before left: its one covering store's payload, over loads of the whole buffers. -/
theorem scratch1_C (c : Dev nD) (i : grid0.Coords) (arg1 : Memref sig .tc .vmem S8192x256 .f32) (harg1 : arg1.IsWhole) (arg2 : Memref sig .tc .vmem S1x8192 .i32) (harg2 : arg2.IsWhole) (arg3 : Memref sig .tc .vmem S19x256 .f32) (harg3 : arg3.IsWhole) (arg4 : Memref sig .tc .vmem S19x256 .f32) (harg4 : arg4.IsWhole) (arg5 : Memref sig .tc .vmem S19x1 .f32) (harg5 : arg5.IsWhole) (arg6 : Memref sig .tc .vmem S19x513 .f32) (harg6 : arg6.IsWhole) (arg7 : Memref sig .tc .vmem S24x256 .f32) (harg7 : arg7.IsWhole) (arg8 : Memref sig .tc .vmem S24x256 .f32) (harg8 : arg8.IsWhole) (arg9 : Memref sig .tc .vmem S24x1 .f32) (harg9 : arg9.IsWhole) (hc0 : ¬cond0_0 i) (hc1 : cond0_1 i) (x0 : Vec F S8192x256 .f32) (x1 : Vec F S1x8192 .i32) (x2 : Vec F S19x256 .f32) (x3 : Vec F S19x256 .f32) (x4 : Vec F S19x1 .f32) (xs0 : Vec F S24x256 .f32) (xs1 : Vec F S24x256 .f32) (xs2 : Vec F S24x1 .f32) :
    sout0_C_1 c i arg1 harg1 arg2 harg2 arg3 harg3 arg4 harg4 arg5 harg5 arg6 harg6 arg7 harg7 arg8 harg8 arg9 harg9 hc0 hc1 x0 x1 x2 x3 x4 xs0 xs1 xs2 = k0_pay16 x0 x1 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero hz]
  simp only [View.readAt_eq_ld, harg1.read_unread, harg2.read_unread, harg8.read_unread,
    View.ld_unit_zero (S := S8192x256) hz, View.ld_unit_zero (S := S1x8192) hz, View.ld_unit_zero (S := S24x256) hz]

/-- At a point that does not reset, the body leaves in the scratch holding the running per-class counts the tile's update of what the
    point before left: its one covering store's payload, over loads of the whole buffers. -/
theorem scratch2_C (c : Dev nD) (i : grid0.Coords) (arg1 : Memref sig .tc .vmem S8192x256 .f32) (harg1 : arg1.IsWhole) (arg2 : Memref sig .tc .vmem S1x8192 .i32) (harg2 : arg2.IsWhole) (arg3 : Memref sig .tc .vmem S19x256 .f32) (harg3 : arg3.IsWhole) (arg4 : Memref sig .tc .vmem S19x256 .f32) (harg4 : arg4.IsWhole) (arg5 : Memref sig .tc .vmem S19x1 .f32) (harg5 : arg5.IsWhole) (arg6 : Memref sig .tc .vmem S19x513 .f32) (harg6 : arg6.IsWhole) (arg7 : Memref sig .tc .vmem S24x256 .f32) (harg7 : arg7.IsWhole) (arg8 : Memref sig .tc .vmem S24x256 .f32) (harg8 : arg8.IsWhole) (arg9 : Memref sig .tc .vmem S24x1 .f32) (harg9 : arg9.IsWhole) (hc0 : ¬cond0_0 i) (hc1 : cond0_1 i) (x0 : Vec F S8192x256 .f32) (x1 : Vec F S1x8192 .i32) (x2 : Vec F S19x256 .f32) (x3 : Vec F S19x256 .f32) (x4 : Vec F S19x1 .f32) (xs0 : Vec F S24x256 .f32) (xs1 : Vec F S24x256 .f32) (xs2 : Vec F S24x1 .f32) :
    sout0_C_2 c i arg1 harg1 arg2 harg2 arg3 harg3 arg4 harg4 arg5 harg5 arg6 harg6 arg7 harg7 arg8 harg8 arg9 harg9 hc0 hc1 x0 x1 x2 x3 x4 xs0 xs1 xs2 = k0_pay1 (k0_pay17 x1 xs2) := by
  unfold sout0_C_2
  rw [View.read_writes_eq_canon _ _ _ (scover0_C_2 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero hz]
  simp only [View.readAt_eq_ld, harg1.read_unread, harg2.read_unread, harg9.read_unread,
    View.ld_unit_zero (S := S8192x256) hz, View.ld_unit_zero (S := S1x8192) hz, View.ld_unit_zero (S := S24x1) hz]

/-- At the first point the body stores zeros into the scratch holding the running per-class sums of the features, reads them back, and leaves the
    tile's update of the zero block. -/
theorem scratch0_A (c : Dev nD) (i : grid0.Coords) (arg1 : Memref sig .tc .vmem S8192x256 .f32) (harg1 : arg1.IsWhole) (arg2 : Memref sig .tc .vmem S1x8192 .i32) (harg2 : arg2.IsWhole) (arg3 : Memref sig .tc .vmem S19x256 .f32) (harg3 : arg3.IsWhole) (arg4 : Memref sig .tc .vmem S19x256 .f32) (harg4 : arg4.IsWhole) (arg5 : Memref sig .tc .vmem S19x1 .f32) (harg5 : arg5.IsWhole) (arg6 : Memref sig .tc .vmem S19x513 .f32) (harg6 : arg6.IsWhole) (arg7 : Memref sig .tc .vmem S24x256 .f32) (harg7 : arg7.IsWhole) (arg8 : Memref sig .tc .vmem S24x256 .f32) (harg8 : arg8.IsWhole) (arg9 : Memref sig .tc .vmem S24x1 .f32) (harg9 : arg9.IsWhole) (hc0 : cond0_0 i) (hc1 : ¬cond0_1 i) (x0 : Vec F S8192x256 .f32) (x1 : Vec F S1x8192 .i32) (x2 : Vec F S19x256 .f32) (x3 : Vec F S19x256 .f32) (x4 : Vec F S19x1 .f32) :
    sout0_A_0 c i arg1 harg1 arg2 harg2 arg3 harg3 arg4 harg4 arg5 harg5 arg6 harg6 arg7 harg7 arg8 harg8 arg9 harg9 hc0 hc1 x0 x1 x2 x3 x4 = k0_pay15 x0 x1 (k0_pay9 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S24x256) hz]
  simp only [View.readAt_eq_ld, harg1.read_unread, harg2.read_unread,
    View.ld_unit_zero (S := S8192x256) hz, View.ld_unit_zero (S := S1x8192) hz, View.readCov_unit_zero (S := S24x256) _ hz]

/-- At the first point the body stores zeros into the scratch holding the running per-class sums of the squared features, reads them back, and leaves the
    tile's update of the zero block. -/
theorem scratch1_A (c : Dev nD) (i : grid0.Coords) (arg1 : Memref sig .tc .vmem S8192x256 .f32) (harg1 : arg1.IsWhole) (arg2 : Memref sig .tc .vmem S1x8192 .i32) (harg2 : arg2.IsWhole) (arg3 : Memref sig .tc .vmem S19x256 .f32) (harg3 : arg3.IsWhole) (arg4 : Memref sig .tc .vmem S19x256 .f32) (harg4 : arg4.IsWhole) (arg5 : Memref sig .tc .vmem S19x1 .f32) (harg5 : arg5.IsWhole) (arg6 : Memref sig .tc .vmem S19x513 .f32) (harg6 : arg6.IsWhole) (arg7 : Memref sig .tc .vmem S24x256 .f32) (harg7 : arg7.IsWhole) (arg8 : Memref sig .tc .vmem S24x256 .f32) (harg8 : arg8.IsWhole) (arg9 : Memref sig .tc .vmem S24x1 .f32) (harg9 : arg9.IsWhole) (hc0 : cond0_0 i) (hc1 : ¬cond0_1 i) (x0 : Vec F S8192x256 .f32) (x1 : Vec F S1x8192 .i32) (x2 : Vec F S19x256 .f32) (x3 : Vec F S19x256 .f32) (x4 : Vec F S19x1 .f32) :
    sout0_A_1 c i arg1 harg1 arg2 harg2 arg3 harg3 arg4 harg4 arg5 harg5 arg6 harg6 arg7 harg7 arg8 harg8 arg9 harg9 hc0 hc1 x0 x1 x2 x3 x4 = k0_pay16 x0 x1 (k0_pay10 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S24x256) hz]
  simp only [View.readAt_eq_ld, harg1.read_unread, harg2.read_unread,
    View.ld_unit_zero (S := S8192x256) hz, View.ld_unit_zero (S := S1x8192) hz, View.readCov_unit_zero (S := S24x256) _ hz]

/-- At the first point the body stores zeros into the scratch holding the running per-class counts, reads them back, and leaves the
    tile's update of the zero block. -/
theorem scratch2_A (c : Dev nD) (i : grid0.Coords) (arg1 : Memref sig .tc .vmem S8192x256 .f32) (harg1 : arg1.IsWhole) (arg2 : Memref sig .tc .vmem S1x8192 .i32) (harg2 : arg2.IsWhole) (arg3 : Memref sig .tc .vmem S19x256 .f32) (harg3 : arg3.IsWhole) (arg4 : Memref sig .tc .vmem S19x256 .f32) (harg4 : arg4.IsWhole) (arg5 : Memref sig .tc .vmem S19x1 .f32) (harg5 : arg5.IsWhole) (arg6 : Memref sig .tc .vmem S19x513 .f32) (harg6 : arg6.IsWhole) (arg7 : Memref sig .tc .vmem S24x256 .f32) (harg7 : arg7.IsWhole) (arg8 : Memref sig .tc .vmem S24x256 .f32) (harg8 : arg8.IsWhole) (arg9 : Memref sig .tc .vmem S24x1 .f32) (harg9 : arg9.IsWhole) (hc0 : cond0_0 i) (hc1 : ¬cond0_1 i) (x0 : Vec F S8192x256 .f32) (x1 : Vec F S1x8192 .i32) (x2 : Vec F S19x256 .f32) (x3 : Vec F S19x256 .f32) (x4 : Vec F S19x1 .f32) :
    sout0_A_2 c i arg1 harg1 arg2 harg2 arg3 harg3 arg4 harg4 arg5 harg5 arg6 harg6 arg7 harg7 arg8 harg8 arg9 harg9 hc0 hc1 x0 x1 x2 x3 x4 = k0_pay1 (k0_pay17 x1 (k0_pay11 (F := F))) := by
  unfold sout0_A_2
  rw [View.read_writes_eq_canon _ _ _ (scover0_A_2 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S24x1) hz]
  simp only [View.readAt_eq_ld, harg1.read_unread, harg2.read_unread,
    View.ld_unit_zero (S := S8192x256) hz, View.ld_unit_zero (S := S1x8192) hz, View.readCov_unit_zero (S := S24x1) _ hz]

/-! ## Point by point

What the three scratch buffers hold after a grid point, from the blocks the point stages and what the point before
left: the first point (it resets) and every later point (the two later control cases leave the same thing in the scratch
buffers; the last point's extra work is on the output block only). -/

variable (m : (ℓ : Loc nD τ sig) → Buf (Elt F) ℓ)

/-- After the first point the scratch holding the running per-class sums of the features is the first tile's update of zeros. -/
theorem first0 (c : Dev nD) (t : Fin cfg0.N) (h0 : t.val % 64 = 0) (h1 : ¬t.val % 64 = 63) :
    (outsAt0 m c t.val t.isLt).2.1 = k0_pay15 (iblk m c 0 t) (iblk m c 1 t) (k0_pay9 (F := F)) := by
  rw [outsAt0_A m c t h0 h1]
  dsimp only
  exact scratch0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ (iblk m c 0 t) (iblk m c 1 t) (iblk m c 2 t) (iblk m c 3 t) (iblk m c 4 t)

/-- After a later point the scratch holding the running per-class sums of the features is the point's tile's update of what the point before left. -/
theorem later0 (c : Dev nD) (t : Fin cfg0.N) (h0 : ¬t.val % 64 = 0) :
    (outsAt0 m c t.val t.isLt).2.1 = k0_pay15 (iblk m c 0 t) (iblk m c 1 t) (outsAt0 m c (t.val - 1) (Nat.lt_of_le_of_lt (Nat.sub_le _ _) t.isLt)).2.1 := by
  by_cases h1 : t.val % 64 = 63
  · rw [outsAt0_C m c t h0 h1]
    dsimp only
    exact scratch0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    dsimp only
    exact scratch0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- After the first point the scratch holding the running per-class sums of the squared features is the first tile's update of zeros. -/
theorem first1 (c : Dev nD) (t : Fin cfg0.N) (h0 : t.val % 64 = 0) (h1 : ¬t.val % 64 = 63) :
    (outsAt0 m c t.val t.isLt).2.2.1 = k0_pay16 (iblk m c 0 t) (iblk m c 1 t) (k0_pay10 (F := F)) := by
  rw [outsAt0_A m c t h0 h1]
  dsimp only
  exact scratch1_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ (iblk m c 0 t) (iblk m c 1 t) (iblk m c 2 t) (iblk m c 3 t) (iblk m c 4 t)

/-- After a later point the scratch holding the running per-class sums of the squared features is the point's tile's update of what the point before left. -/
theorem later1 (c : Dev nD) (t : Fin cfg0.N) (h0 : ¬t.val % 64 = 0) :
    (outsAt0 m c t.val t.isLt).2.2.1 = k0_pay16 (iblk m c 0 t) (iblk m c 1 t) (outsAt0 m c (t.val - 1) (Nat.lt_of_le_of_lt (Nat.sub_le _ _) t.isLt)).2.2.1 := by
  by_cases h1 : t.val % 64 = 63
  · rw [outsAt0_C m c t h0 h1]
    dsimp only
    exact scratch1_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    dsimp only
    exact scratch1_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- After the first point the scratch holding the running per-class counts is the first tile's update of zeros. -/
theorem first2 (c : Dev nD) (t : Fin cfg0.N) (h0 : t.val % 64 = 0) (h1 : ¬t.val % 64 = 63) :
    (outsAt0 m c t.val t.isLt).2.2.2 = k0_pay1 (k0_pay17 (iblk m c 1 t) (k0_pay11 (F := F))) := by
  rw [outsAt0_A m c t h0 h1]
  dsimp only
  exact scratch2_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ (iblk m c 0 t) (iblk m c 1 t) (iblk m c 2 t) (iblk m c 3 t) (iblk m c 4 t)

/-- After a later point the scratch holding the running per-class counts is the point's tile's update of what the point before left. -/
theorem later2 (c : Dev nD) (t : Fin cfg0.N) (h0 : ¬t.val % 64 = 0) :
    (outsAt0 m c t.val t.isLt).2.2.2 = k0_pay1 (k0_pay17 (iblk m c 1 t) (outsAt0 m c (t.val - 1) (Nat.lt_of_le_of_lt (Nat.sub_le _ _) t.isLt)).2.2.2) := by
  by_cases h1 : t.val % 64 = 63
  · rw [outsAt0_C m c t h0 h1]
    dsimp only
    exact scratch2_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    dsimp only
    exact scratch2_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Pieces

end
-- ==== Proof.KBlocks.lean ====
/-
  The blocks the pipeline stages at grid point t, in terms of the argument arrays: the feature block is rows
  t·8192 … t·8192 + 8191 of the feature array, the label block the same stretch of the label vector (seen as one row),
  and the stored mean, covariance and amount are staged whole at every point (the amount as a column).
-/
import proofs.«400048_j47802986004511_1_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The block indices of the two moving windows at point t: the feature window moves down the rows, the label window
    along the one row. -/
theorem moving_index : ∀ t : Fin cfg0.N, win0_0.index t (0 : Fin 2) = t.val ∧ win0_0.index t (1 : Fin 2) = 0
    ∧ win0_1.index t (0 : Fin 2) = 0 ∧ win0_1.index t (1 : Fin 2) = t.val :=
  (by decide +kernel : ∀ t : Fin grid0.N, win0_0.index t (0 : Fin 2) = t.val ∧ win0_0.index t (1 : Fin 2) = 0
    ∧ win0_1.index t (0 : Fin 2) = 0 ∧ win0_1.index t (1 : Fin 2) = t.val)

/-- The block indices of the three fixed windows are zero at every point. -/
theorem fixed_index : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0)

/-- Row k of the feature block at point t is row t·8192 + k of the feature array. -/
theorem feature_block (c : Dev nD) (t : Fin cfg0.N) (k : Fin 8192) (a : Fin 256) (hk : t.val * 8192 + k.val < 524288) :
    (iblk m c 0 t : Vec F S8192x256 .f32) (ix2 k a)
      = m ((c : Thread nD τ).loc main_arg0) (ix2 (⟨t.val * 8192 + k.val, hk⟩ : Fin 524288) a) := by
  have hi := moving_index t
  unfold iblk
  rw [View.read_apply]
  show V m c main_arg0 _ = _
  rw [V_main_arg0]
  congr 1
  funext d
  apply Fin.ext
  match d with
  | ⟨0, _⟩ => show win0_0.index t 0 * 8192 + 1 * k.val = t.val * 8192 + k.val; rw [hi.1]; omega
  | ⟨1, _⟩ => show win0_0.index t 1 * 256 + 1 * a.val = a.val; rw [hi.2.1]; omega

/-- The label vector as the region finds it: one row holding the label vector. -/
theorem label_row (c : Dev nD) :
    (V m c main_v0 : S1x524288.Idx → BitVec 32)
      = shapeCast S1x524288 (m ((c : Thread nD τ).loc main_arg1)) shapeCasts_S524288_S1x524288 := by
  dsimp only [V, hostOps0]
  after_results
  rfl

/-- The stored amount as the region finds it: a column holding the amount vector. -/
theorem amount_col (c : Dev nD) :
    (V m c main_v1 : S19x1.Idx → Elt F .f32)
      = shapeCast S19x1 (m ((c : Thread nD τ).loc main_arg4)) shapeCasts_S19_S19x1 := by
  dsimp only [V, hostOps0]
  after_results
  rfl

/-- Entry k of the label block at point t is label t·8192 + k. -/
theorem label_block (c : Dev nD) (t : Fin cfg0.N) (k : Fin 8192) (hk : t.val * 8192 + k.val < 524288) :
    (iblk m c 1 t : Vec F S1x8192 .i32) (ix2 (0 : Fin 1) k)
      = m ((c : Thread nD τ).loc main_arg1) (ix1 (⟨t.val * 8192 + k.val, hk⟩ : Fin 524288)) := by
  have hi := moving_index t
  unfold iblk
  rw [View.read_apply]
  show V m c main_v0 _ = _
  rw [label_row]
  refine shapeCast_apply _ _ _ (ix1 (⟨t.val * 8192 + k.val, hk⟩ : Fin 524288)) ?_
  rw [Shape.rowMajor_val_one, Shape.rowMajor_val_two]
  show t.val * 8192 + k.val = (win0_1.index t 0 * 1 + 1 * 0) * 524288 + (win0_1.index t 1 * 8192 + 1 * k.val)
  rw [hi.2.2.1, hi.2.2.2]
  omega

/-- The stored-mean block at any point is the stored mean. -/
theorem mean_block (c : Dev nD) (t : Fin cfg0.N) (r : Fin 19) (a : Fin 256) :
    (iblk m c 2 t : Vec F S19x256 .f32) (ix2 r a) = m ((c : Thread nD τ).loc main_arg2) (ix2 r a) := by
  have hi := fixed_index t
  unfold iblk
  rw [View.read_apply]
  show V m c main_arg2 _ = _
  rw [V_main_arg2]
  congr 1
  funext d
  apply Fin.ext
  match d with
  | ⟨0, _⟩ => show win0_2.index t 0 * 19 + 1 * r.val = r.val; rw [hi.1]; omega
  | ⟨1, _⟩ => show win0_2.index t 1 * 256 + 1 * a.val = a.val; rw [hi.2.1]; omega

/-- The stored-covariance block at any point is the stored covariance. -/
theorem cov_block (c : Dev nD) (t : Fin cfg0.N) (r : Fin 19) (a : Fin 256) :
    (iblk m c 3 t : Vec F S19x256 .f32) (ix2 r a) = m ((c : Thread nD τ).loc main_arg3) (ix2 r a) := by
  have hi := fixed_index t
  unfold iblk
  rw [View.read_apply]
  show V m c main_arg3 _ = _
  rw [V_main_arg3]
  congr 1
  funext d
  apply Fin.ext
  match d with
  | ⟨0, _⟩ => show win0_3.index t 0 * 19 + 1 * r.val = r.val; rw [hi.2.2.1]; omega
  | ⟨1, _⟩ => show win0_3.index t 1 * 256 + 1 * a.val = a.val; rw [hi.2.2.2.1]; omega

/-- The stored-amount block at any point is the stored amount, as a column. -/
theorem amount_block (c : Dev nD) (t : Fin cfg0.N) (r : Fin 19) :
    (iblk m c 4 t : Vec F S19x1 .f32) (ix2 r (0 : Fin 1)) = m ((c : Thread nD τ).loc main_arg4) (ix1 r) := by
  have hi := fixed_index t
  unfold iblk
  rw [View.read_apply]
  show V m c main_v1 _ = _
  rw [amount_col]
  refine shapeCast_apply _ _ _ (ix1 r) ?_
  rw [Shape.rowMajor_val_one, Shape.rowMajor_val_two]
  show r.val = (win0_4.index t 0 * 19 + 1 * r.val) * 1 + (win0_4.index t 1 * 1 + 1 * 0)
  rw [hi.2.2.2.2.1, hi.2.2.2.2.2]
  omega

end Cert.KernelIdeal.Blocks

end
-- ==== Proof.KSums.lean ====
/-
  The class sums, tile by tile. The 524288 rows come in 64 tiles of 8192 consecutive rows. For a class number r and a
  row-indexed family f, the sum of f over the rows of class r among the first n tiles extends, with one more tile, by
  that tile's 8192 terms (a row of another class contributes 0), and over all 64 tiles it is the sum over the class.
  A tile's term is also what a one-hot product computes: (1 if the label word is the class number, else 0) · f.
-/
import Idealize.ShloMosaic.PureOps.Ideal
import Idealize.ShloMosaic.Lib.ValueIdx

noncomputable section

open scoped BigOperators

namespace Cert.ClassStats

open Idealize.ShloMosaic Idealize.ShloMosaic.ValueIdx

/-- What row number `e` contributes to class `r`: `f e` when the row exists and its label reads signed as `r`, else 0. -/
def contrib (lab : (⟨1, ![524288]⟩ : Shape).Idx → BitVec 32) (r : Nat) (f : Fin 524288 → EReal) (e : Nat) : EReal :=
  if h : e < 524288 then (if (lab (ix1 (⟨e, h⟩ : Fin 524288))).toInt = (r : Int) then f ⟨e, h⟩ else 0) else 0

/-- The sum of `f` over the rows of class `r` among the first `n` tiles of 8192 rows. -/
def upTo (lab : (⟨1, ![524288]⟩ : Shape).Idx → BitVec 32) (r : Nat) (f : Fin 524288 → EReal) (n : Nat) : EReal :=
  ∑ e ∈ Finset.range (n * 8192), contrib lab r f e

/-- Over no tile the sum is empty. -/
theorem upTo_zero (lab : (⟨1, ![524288]⟩ : Shape).Idx → BitVec 32) (r : Nat) (f : Fin 524288 → EReal) :
    upTo lab r f 0 = 0 := by
  unfold upTo
  rw [Nat.zero_mul, Finset.range_zero, Finset.sum_empty]

/-- One more tile adds its 8192 rows' contributions. -/
theorem upTo_succ (lab : (⟨1, ![524288]⟩ : Shape).Idx → BitVec 32) (r : Nat) (f : Fin 524288 → EReal) (n : Nat) :
    upTo lab r f (n + 1) = upTo lab r f n + ∑ k : Fin 8192, contrib lab r f (n * 8192 + k.val) := by
  unfold upTo
  rw [Nat.succ_mul, Finset.sum_range_add]
  exact congrArg (fun z => ∑ e ∈ Finset.range (n * 8192), contrib lab r f e + z)
    (Finset.sum_range (fun x => contrib lab r f (n * 8192 + x)))

/-- All 64 tiles: the sum over the class. -/
theorem upTo_all (lab : (⟨1, ![524288]⟩ : Shape).Idx → BitVec 32) (r : Nat) (f : Fin 524288 → EReal) :
    upTo lab r f 64 = ∑ e ∈ Finset.univ.filter (fun e : Fin 524288 => (lab (ix1 e)).toInt = (r : Int)), f e := by
  unfold upTo
  rw [show 64 * 8192 = 524288 from rfl, Finset.sum_range, Finset.sum_filter]
  refine Finset.sum_congr rfl fun e _ => ?_
  unfold contrib
  rw [dif_pos e.isLt]

/-- A 32-bit word is the word of a small number exactly when it reads, signed, as that number. -/
theorem word_eq_iff (w : BitVec 32) (r : Nat) (hr : r < 24) : w = BitVec.ofNat 32 r ↔ w.toInt = (r : Int) := by
  have hofr : (BitVec.ofNat 32 r).toInt = (r : Int) := by
    interval_cases r <;> decide
  constructor
  · intro h; rw [h, hofr]
  · intro h; exact BitVec.eq_of_toInt_eq (h.trans hofr.symm)

/-- The one-hot product: (1 if the word is the class number else 0) · v is v for a row of the class and 0 otherwise. -/
theorem hot_mul (w : BitVec 32) (r : Fin 24) (v : EReal) :
    (if w = BitVec.ofNat 32 r.val then (1 : EReal) else 0) * v = if w.toInt = (r.val : Int) then v else 0 := by
  by_cases h : w = BitVec.ofNat 32 r.val
  · rw [if_pos h, if_pos ((word_eq_iff w r.val r.isLt).mp h), one_mul]
  · rw [if_neg h, if_neg (fun h' => h ((word_eq_iff w r.val r.isLt).mpr h')), zero_mul]

/-- The one-hot entry alone counts the row: 1 for a row of the class, else 0. -/
theorem hot_one (w : BitVec 32) (r : Fin 24) :
    (if w = BitVec.ofNat 32 r.val then (1 : EReal) else 0) = if w.toInt = (r.val : Int) then (1 : EReal) else 0 := by
  have := hot_mul w r 1
  rwa [mul_one] at this

/-- Row `k` of tile `n` (n < 64) contributes to class `r` what the one-hot product gives. -/
theorem contrib_tile (lab : (⟨1, ![524288]⟩ : Shape).Idx → BitVec 32) (r : Fin 24) (f : Fin 524288 → EReal)
    (n : Nat) (hn : n < 64) (k : Fin 8192) :
    contrib lab r.val f (n * 8192 + k.val)
      = (if lab (ix1 (⟨n * 8192 + k.val, by omega⟩ : Fin 524288)) = BitVec.ofNat 32 r.val then (1 : EReal) else 0)
          * f ⟨n * 8192 + k.val, by omega⟩ := by
  unfold contrib
  rw [dif_pos (by omega), hot_mul]

end Cert.ClassStats

end
-- ==== Proof.KTile.lean ====
import proofs.«400048_j47802986004511_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

/-!
# One tile's contribution to the running statistics, at the extended reals, entry by entry

Each grid point reads a tile of 8192 feature rows `x` (256 features each) and the tile's 8192 label words `lab`.
From the labels it builds the one-hot matrix with 24 rows, `hot lab r k = 1` when label `k` is the class number `r`
and `0` otherwise: the row numbers come from a count along axis 0 broadcast along the columns, the labels are broadcast
along the rows, the two are compared for equality, and the comparison bit is widened and converted to a float (narrowing
it afterwards changes nothing over the extended reals). Three running blocks are then advanced:

* the per-class feature sums by the product `hot · x`,
* the per-class sums of squares by the product `hot · (x * x)`,
* the per-class counts by the row sums of `hot`.

Both products run into a zero accumulator, so each is the plain sum over the tile's rows. The reset blocks written at
the first grid point are zero everywhere.
-/

noncomputable section

open scoped BigOperators

namespace Cert.KernelIdeal.Tile

open Cert.KernelIdeal Cert.KernelIdeal.Gen Idealize.ShloMosaic Idealize.ShloMosaic.ValueIdx

/-- The one-hot entry: 1 when label word k of the tile is the class number r, else 0. -/
def hot (lab : Vec Ideal S1x8192 .i32) (r : Fin 24) (k : Fin 8192) : EReal :=
  if lab (ix2 (0 : Fin 1) k) = BitVec.ofNat 32 r.val then 1 else 0

/-- A column `[m, 1]` broadcast to `[m, n]` reads, at `(p, c)`, the column's entry of row `p`. -/
theorem bcast_col {α : Type} {m n : ℕ} (v : (⟨2, ![m, 1]⟩ : Shape).Idx → α)
    (h : (⟨2, ![m, 1]⟩ : Shape).Broadcasts ⟨2, ![m, n]⟩) (p : Fin m) (c : Fin n) :
    broadcastTo ⟨2, ![m, n]⟩ v h (ix2 p c) = v (ix2 p (0 : Fin 1)) := by
  refine broadcastTo_apply v h (ix2 p c) (ix2 p (0 : Fin 1)) fun ax => ?_
  match ax with
  | ⟨0, _⟩ =>
    show p.val = if m = 1 then 0 else p.val
    split
    · have := p.isLt; omega
    · rfl
  | ⟨1, _⟩ => rfl

/-! ## The reset blocks -/

/-- The word of `0.0` is the extended real zero. -/
theorem zero_word : Scalar.ofBits (F := Ideal) .f32 0x00000000#32 = 0 := Ideal.ofBits_zero_f32

/-- The reset block of the feature sums is zero. -/
theorem zero_sum (j : S24x256.Idx) : k0_pay9 (F := Ideal) j = 0 := by
  unfold k0_pay9
  rw [shapeCast_self, broadcast_apply, zero_word]

/-- The reset block of the sums of squares is zero. -/
theorem zero_sq (j : S24x256.Idx) : k0_pay10 (F := Ideal) j = 0 := by
  unfold k0_pay10
  rw [shapeCast_self, broadcast_apply, zero_word]

/-- The reset column of the counts is zero. -/
theorem zero_count (j : S24x1.Idx) : k0_pay11 (F := Ideal) j = 0 := by
  unfold k0_pay11
  rw [shapeCast_self, broadcast_apply, zero_word]

/-! ## The one-hot matrix -/

/-- The comparison bit at `(r, k)`: the word of the row number `r` against label word `k`. -/
theorem onehot_bit (lab : Vec Ideal S1x8192 .i32) (r : Fin 24) (k : Fin 8192) :
    k0_pay12 (F := Ideal) lab (ix2 r k)
      = BitVec.ofBool (BitVec.ofNat 32 r.val == lab (ix2 (0 : Fin 1) k)) := by
  unfold k0_pay12
  rw [shapeCast_self]
  show IntOp.cmpi .eq (broadcastTo S24x8192 (iota .tc S24x1 32 [0] iota_S24x1_d0_w32) broadcasts_S24x1_S24x8192 (ix2 r k))
      (broadcastTo S24x8192 lab broadcasts_S1x8192_S24x8192 (ix2 r k)) = _
  rw [bcast_col, broadcastTo_1b_ab_apply, iota_single_apply]
  rfl

/-- A one-bit word widened to 32 bits and converted as a signed integer is `1` for a set bit, `0` for a clear one. -/
theorem sitofp_bit (b : Bool) :
    FloatOps.sitofp (F := Ideal) .f32 ((BitVec.ofBool b).setWidth 32) = if b then 1 else 0 := by
  cases b
  · show (((0#32 : BitVec 32).toInt : ℝ) : EReal) = 0
    simp
  · show (((1#32 : BitVec 32).toInt : ℝ) : EReal) = 1
    have : (1#32 : BitVec 32).toInt = 1 := by decide
    rw [this]; simp

/-- The one-hot matrix as 32-bit floats, at `(r, k)`. -/
theorem onehot_f32 (lab : Vec Ideal S1x8192 .i32) (r : Fin 24) (k : Fin 8192) :
    (sitofp .f32 (extui 32 (k0_pay12 (F := Ideal) lab) natLt_1_32) : FVec Ideal S24x8192 .f32) (ix2 r k) = hot lab r k := by
  rw [sitofp_apply, extui_apply, onehot_bit, sitofp_bit]
  unfold hot
  by_cases h : lab (ix2 (0 : Fin 1) k) = BitVec.ofNat 32 r.val
  · rw [if_pos h, h, if_pos (by simp)]
  · rw [if_neg h, if_neg]
    intro e
    exact h (eq_of_beq e).symm

/-- The one-hot matrix as the matmul's left operand (the narrowing changes nothing at the extended reals). -/
theorem onehot_at (lab : Vec Ideal S1x8192 .i32) (r : Fin 24) (k : Fin 8192) :
    k0_pay13 (F := Ideal) lab (ix2 r k) = hot lab r k := by
  unfold k0_pay13
  rw [truncf_apply, onehot_f32]

/-! ## The counts -/

/-- The count of class `r` advances by the number of the tile's labels equal to `r`: the row sum of the one-hot
    matrix, read through the cast that turns the 24 row sums into a column. -/
theorem count_tile (lab : Vec Ideal S1x8192 .i32) (acc : Vec Ideal S24x1 .f32) (r : Fin 24) :
    k0_pay1 (F := Ideal) (k0_pay17 (F := Ideal) lab acc) (ix2 r (0 : Fin 1)) = acc (ix2 r (0 : Fin 1)) + ∑ k : Fin 8192, hot lab r k := by
  unfold k0_pay1 k0_pay17
  rw [shapeCast_self, addf_apply]
  congr 1
  rw [shapeCast_apply _ shapeCasts_S24_S24x1 (ix2 r (0 : Fin 1)) (ix1 r) (by
    rw [Shape.rowMajor_val_two, Shape.rowMajor_val_one]
    show r.val = r.val * 1 + 0
    omega)]
  refine (Ideal.multiReduction_add_single (φ := .f32)
    (sitofp .f32 (extui 32 (k0_pay12 (F := Ideal) lab) natLt_1_32)) 0x00000000#32 reduces_S24x8192_S24 (.inl rfl) rfl
    (ix1 r)).trans ?_
  show ∑ k : Fin 8192, _ = _
  refine Finset.sum_congr rfl fun k _ => ?_
  have hk : reduces_S24x8192_S24.lift (ix1 r) k = ix2 r k := by
    funext c
    match c with
    | ⟨0, _⟩ => rfl
    | ⟨1, _⟩ => rfl
  rw [hk, onehot_f32]

/-! ## The contraction's index maps

The two products contract the left operand's axis 1 against the right operand's axis 0. At an output index `j` and a
contraction index `k`, the left operand is read at `(j 0, k)` and the right operand at `(k, j 1)`: one statement per
operand and axis. -/

/-- The left operand's row is the output's row. -/
theorem lhs_dot_0 (j : S24x256.Idx) (k : dot_S24x8192_S8192x256_S24x256_1_0_0_1_n_n.contr.Idx) :
    (dot_S24x8192_S8192x256_S24x256_1_0_0_1_n_n.lhsIdx j k 0).val = (j 0).val := by
  unfold DotDims.lhsIdx
  rw [dif_neg (by decide), dif_pos (by decide)]
  rfl

/-- The left operand's column is the contraction coordinate. -/
theorem lhs_dot_1 (j : S24x256.Idx) (k : dot_S24x8192_S8192x256_S24x256_1_0_0_1_n_n.contr.Idx) :
    (dot_S24x8192_S8192x256_S24x256_1_0_0_1_n_n.lhsIdx j k 1).val = (k ⟨0, by decide⟩).val :=
  dot_S24x8192_S8192x256_S24x256_1_0_0_1_n_n.lhsIdx_val_of_single rfl j k

/-- The right operand's row is the contraction coordinate. -/
theorem rhs_dot_0 (j : S24x256.Idx) (k : dot_S24x8192_S8192x256_S24x256_1_0_0_1_n_n.contr.Idx) :
    (dot_S24x8192_S8192x256_S24x256_1_0_0_1_n_n.rhsIdx j k 0).val = (k ⟨0, by decide⟩).val :=
  dot_S24x8192_S8192x256_S24x256_1_0_0_1_n_n.rhsIdx_val_of_single rfl j k

/-- The right operand's column is the output's column. -/
theorem rhs_dot_1 (j : S24x256.Idx) (k : dot_S24x8192_S8192x256_S24x256_1_0_0_1_n_n.contr.Idx) :
    (dot_S24x8192_S8192x256_S24x256_1_0_0_1_n_n.rhsIdx j k 1).val = (j 1).val := by
  unfold DotDims.rhsIdx
  rw [dif_neg (by decide), dif_pos (by decide)]
  rfl

/-- The contraction index set is `Fin 8192`: the 8192 rows of the tile. -/
abbrev rows : dot_S24x8192_S8192x256_S24x256_1_0_0_1_n_n.contr.Idx ≃ Fin 8192 :=
  contrEquiv1 dot_S24x8192_S8192x256_S24x256_1_0_0_1_n_n 8192 rfl rfl

/-- At output `(r, a)` and tile row `k` the left operand is read at `(r, k)` … -/
theorem lhs_dot_ix (r : Fin 24) (a : Fin 256) (k : Fin 8192) :
    dot_S24x8192_S8192x256_S24x256_1_0_0_1_n_n.lhsIdx (ix2 r a) (rows.symm k) = ix2 r k :=
  Shape.idx_ext₂ (lhs_dot_0 _ _) ((lhs_dot_1 _ _).trans (contrEquiv1_symm_val _ 8192 rfl rfl k))

/-- … and the right operand at `(k, a)`. -/
theorem rhs_dot_ix (r : Fin 24) (a : Fin 256) (k : Fin 8192) :
    dot_S24x8192_S8192x256_S24x256_1_0_0_1_n_n.rhsIdx (ix2 r a) (rows.symm k) = ix2 k a :=
  Shape.idx_ext₂ ((rhs_dot_0 _ _).trans (contrEquiv1_symm_val _ 8192 rfl rfl k)) (rhs_dot_1 _ _)

/-- A product of the one-hot matrix with a right operand `y`, into the zero accumulator, at `(r, a)`: the sum over
    the tile's rows of the one-hot entry times `y`'s entry. -/
theorem onehot_matmul (lab : Vec Ideal S1x8192 .i32) (y : FVec Ideal S8192x256 .bf16) (r : Fin 24) (a : Fin 256) :
    matmul dot_S24x8192_S8192x256_S24x256_1_0_0_1_n_n none (k0_pay13 (F := Ideal) lab) y
        (constant S24x256 .f32 0x00000000#32) (ix2 r a)
      = ∑ k : Fin 8192, hot lab r k * y (ix2 k a) := by
  refine (Ideal.matmul_constant_zero_apply dot_S24x8192_S8192x256_S24x256_1_0_0_1_n_n none
    (k0_pay13 (F := Ideal) lab) y (ix2 r a)).trans ?_
  rw [← Equiv.sum_comp rows.symm]
  refine Finset.sum_congr rfl fun k _ => ?_
  rw [lhs_dot_ix, rhs_dot_ix, onehot_at]

/-! ## The sums and the sums of squares -/

/-- The right operand of the first product is the feature tile itself. -/
theorem feat_at (x : Vec Ideal S8192x256 .f32) (j : S8192x256.Idx) : k0_pay14 (F := Ideal) x j = x j := rfl

/-- The feature sum of class `r` at feature `a` advances by the sum of that feature over the tile's rows labelled `r`. -/
theorem sum_tile (x : Vec Ideal S8192x256 .f32) (lab : Vec Ideal S1x8192 .i32) (acc : Vec Ideal S24x256 .f32) (r : Fin 24) (a : Fin 256) :
    k0_pay15 (F := Ideal) x lab acc (ix2 r a) = acc (ix2 r a) + ∑ k : Fin 8192, hot lab r k * x (ix2 k a) := by
  unfold k0_pay15
  rw [shapeCast_self, addf_apply, onehot_matmul]
  simp only [feat_at]

/-- The sum of squares of class `r` at feature `a` advances by the sum of that feature's square over the tile's rows
    labelled `r`. -/
theorem sq_tile (x : Vec Ideal S8192x256 .f32) (lab : Vec Ideal S1x8192 .i32) (acc : Vec Ideal S24x256 .f32) (r : Fin 24) (a : Fin 256) :
    k0_pay16 (F := Ideal) x lab acc (ix2 r a) = acc (ix2 r a) + ∑ k : Fin 8192, hot lab r k * (x (ix2 k a) * x (ix2 k a)) := by
  unfold k0_pay16
  rw [shapeCast_self, addf_apply, onehot_matmul]
  simp only [mulf_apply, feat_at]

end Cert.KernelIdeal.Tile

end
-- ==== Proof.Spec.lean ====
/-
  Per-class running statistics, merged with stored ones: the result both programs compute, as ONE function of the
  argument arrays.

  Rows `e` of the feature array `x` ([524288 × 256]) carry a label word `lab e`; row `e` belongs to class `c` when
  its label read as a signed integer is `c`. For a class `c < 19` and a feature `a`:
    count c      = the number of rows of class c,
    rowSum c a   = Σ over those rows of x e a,           sqSum c a = Σ over those rows of (x e a)²,
    denom c      = max (count c) 1,
    mean c a     = rowSum c a / denom c,                  variance c a = sqSum c a / denom c − (mean c a)²,
    weight c     = count c / (count c + amount c).
  The output row of class `c` ([19 × 513]) is
    columns 0 … 255   : cov c a · (1 − w) + variance c a · w + (w · (1 − w)) · (mu c a − mean c a)²,
    columns 256 … 511 : mu c a · (1 − w) + mean c a · w,
    column 512        : amount c + count c,
  with `mu`, `cov`, `amount` the stored mean, covariance and amount and `w = weight c`. Quotients are the ideal
  instance's (`Ideal.div`), products, sums and differences the extended reals'.
-/
import Idealize.ShloMosaic.PureOps.Ideal
import Idealize.ShloMosaic.Lib.ValueIdx

noncomputable section

open scoped BigOperators

namespace Cert.ClassStats

open Idealize.ShloMosaic Idealize.ShloMosaic.ValueIdx

/-- The rows of class `c`: those whose label word reads, signed, as `c`. -/
def members (lab : (⟨1, ![524288]⟩ : Shape).Idx → BitVec 32) (c : Nat) : Finset (Fin 524288) :=
  Finset.univ.filter (fun e => (lab (ix1 e)).toInt = (c : Int))

/-- How many rows class `c` has, as an extended real. -/
def count (lab : (⟨1, ![524288]⟩ : Shape).Idx → BitVec 32) (c : Nat) : EReal :=
  ∑ _e ∈ members lab c, (1 : EReal)

/-- The sum of feature `a` over the rows of class `c`. -/
def rowSum (x : (⟨2, ![524288, 256]⟩ : Shape).Idx → EReal) (lab : (⟨1, ![524288]⟩ : Shape).Idx → BitVec 32)
    (c : Nat) (a : Fin 256) : EReal :=
  ∑ e ∈ members lab c, x (ix2 e a)

/-- The sum of the squares of feature `a` over the rows of class `c`. -/
def sqSum (x : (⟨2, ![524288, 256]⟩ : Shape).Idx → EReal) (lab : (⟨1, ![524288]⟩ : Shape).Idx → BitVec 32)
    (c : Nat) (a : Fin 256) : EReal :=
  ∑ e ∈ members lab c, x (ix2 e a) * x (ix2 e a)

/-- The divisor of a class's averages: its count, or one when the class is empty. -/
def denom (lab : (⟨1, ![524288]⟩ : Shape).Idx → BitVec 32) (c : Nat) : EReal := max (count lab c) 1

/-- The class mean of feature `a`. -/
def mean (x : (⟨2, ![524288, 256]⟩ : Shape).Idx → EReal) (lab : (⟨1, ![524288]⟩ : Shape).Idx → BitVec 32)
    (c : Nat) (a : Fin 256) : EReal :=
  Ideal.div (rowSum x lab c a) (denom lab c)

/-- The class variance of feature `a`, as mean of squares minus squared mean. -/
def variance (x : (⟨2, ![524288, 256]⟩ : Shape).Idx → EReal) (lab : (⟨1, ![524288]⟩ : Shape).Idx → BitVec 32)
    (c : Nat) (a : Fin 256) : EReal :=
  Ideal.div (sqSum x lab c a) (denom lab c) - mean x lab c a * mean x lab c a

/-- The weight the new statistics of class `c` get against the stored ones. -/
def weight (lab : (⟨1, ![524288]⟩ : Shape).Idx → BitVec 32) (amount : (⟨1, ![19]⟩ : Shape).Idx → EReal)
    (c : Fin 19) : EReal :=
  Ideal.div (count lab c.val) (count lab c.val + amount (ix1 c))

/-- The merged covariance of class `c`, feature `a`. -/
def newCov (x : (⟨2, ![524288, 256]⟩ : Shape).Idx → EReal) (lab : (⟨1, ![524288]⟩ : Shape).Idx → BitVec 32)
    (mu cov : (⟨2, ![19, 256]⟩ : Shape).Idx → EReal) (amount : (⟨1, ![19]⟩ : Shape).Idx → EReal)
    (c : Fin 19) (a : Fin 256) : EReal :=
  cov (ix2 c a) * (1 - weight lab amount c) + variance x lab c.val a * weight lab amount c
    + (weight lab amount c * (1 - weight lab amount c))
      * ((mu (ix2 c a) - mean x lab c.val a) * (mu (ix2 c a) - mean x lab c.val a))

/-- The merged mean of class `c`, feature `a`. -/
def newMean (x : (⟨2, ![524288, 256]⟩ : Shape).Idx → EReal) (lab : (⟨1, ![524288]⟩ : Shape).Idx → BitVec 32)
    (mu : (⟨2, ![19, 256]⟩ : Shape).Idx → EReal) (amount : (⟨1, ![19]⟩ : Shape).Idx → EReal)
    (c : Fin 19) (a : Fin 256) : EReal :=
  mu (ix2 c a) * (1 - weight lab amount c) + mean x lab c.val a * weight lab amount c

/-- The merged amount of class `c`. -/
def newAmount (lab : (⟨1, ![524288]⟩ : Shape).Idx → BitVec 32) (amount : (⟨1, ![19]⟩ : Shape).Idx → EReal)
    (c : Fin 19) : EReal :=
  amount (ix1 c) + count lab c.val

/-- The whole result: per class the merged covariance, then the merged mean, then the merged amount. -/
def merged (x : (⟨2, ![524288, 256]⟩ : Shape).Idx → EReal) (lab : (⟨1, ![524288]⟩ : Shape).Idx → BitVec 32)
    (mu cov : (⟨2, ![19, 256]⟩ : Shape).Idx → EReal) (amount : (⟨1, ![19]⟩ : Shape).Idx → EReal) :
    (⟨2, ![19, 513]⟩ : Shape).Idx → EReal := fun i =>
  if h : (i 1).val < 256 then newCov x lab mu cov amount (i 0) ⟨(i 1).val, h⟩
  else if h2 : (i 1).val < 512 then newMean x lab mu amount (i 0) ⟨(i 1).val - 256, by omega⟩
  else newAmount lab amount (i 0)

/-- The result at a covariance column. -/
theorem merged_cov (x : (⟨2, ![524288, 256]⟩ : Shape).Idx → EReal) (lab : (⟨1, ![524288]⟩ : Shape).Idx → BitVec 32)
    (mu cov : (⟨2, ![19, 256]⟩ : Shape).Idx → EReal) (amount : (⟨1, ![19]⟩ : Shape).Idx → EReal)
    (c : Fin 19) (j : Fin 513) (a : Fin 256) (h : j.val = a.val) :
    merged x lab mu cov amount (ix2 c j) = newCov x lab mu cov amount c a := by
  have hj : ((ix2 c j : (⟨2, ![19, 513]⟩ : Shape).Idx) 1).val < 256 := by show j.val < 256; omega
  unfold merged
  rw [dif_pos hj]
  congr 1
  exact Fin.ext h

/-- The result at a mean column. -/
theorem merged_mean (x : (⟨2, ![524288, 256]⟩ : Shape).Idx → EReal) (lab : (⟨1, ![524288]⟩ : Shape).Idx → BitVec 32)
    (mu cov : (⟨2, ![19, 256]⟩ : Shape).Idx → EReal) (amount : (⟨1, ![19]⟩ : Shape).Idx → EReal)
    (c : Fin 19) (j : Fin 513) (a : Fin 256) (h : j.val = 256 + a.val) :
    merged x lab mu cov amount (ix2 c j) = newMean x lab mu amount c a := by
  have hj : ¬ ((ix2 c j : (⟨2, ![19, 513]⟩ : Shape).Idx) 1).val < 256 := by show ¬ j.val < 256; omega
  have hj2 : ((ix2 c j : (⟨2, ![19, 513]⟩ : Shape).Idx) 1).val < 512 := by show j.val < 512; omega
  unfold merged
  rw [dif_neg hj, dif_pos hj2]
  congr 1
  exact Fin.ext (by show j.val - 256 = a.val; omega)

/-- The result at the amount column. -/
theorem merged_amount (x : (⟨2, ![524288, 256]⟩ : Shape).Idx → EReal) (lab : (⟨1, ![524288]⟩ : Shape).Idx → BitVec 32)
    (mu cov : (⟨2, ![19, 256]⟩ : Shape).Idx → EReal) (amount : (⟨1, ![19]⟩ : Shape).Idx → EReal)
    (c : Fin 19) (j : Fin 513) (h : j.val = 512) :
    merged x lab mu cov amount (ix2 c j) = newAmount lab amount c := by
  have hj : ¬ ((ix2 c j : (⟨2, ![19, 513]⟩ : Shape).Idx) 1).val < 256 := by show ¬ j.val < 256; omega
  have hj2 : ¬ ((ix2 c j : (⟨2, ![19, 513]⟩ : Shape).Idx) 1).val < 512 := by show ¬ j.val < 512; omega
  unfold merged
  rw [dif_neg hj, dif_neg hj2]

end Cert.ClassStats

end
-- ==== Proof.KAcc.lean ====
/-
  The accumulation over the grid. After grid point n the three carried scratch buffers hold, in row r, the sums over the
  rows of class r among the first n + 1 tiles of 8192 rows: of the features, of their squares, and of ones (the count).
  By induction on the point: the first point adds its tile to zeros, each later point adds its tile to what the point
  before left, and a tile's one-hot product is the tile's contribution to the class sum.
-/
import proofs.«400048_j47802986004511_1_alg».proof.Proof.Pieces
import proofs.«400048_j47802986004511_1_alg».proof.Proof.KBlocks
import proofs.«400048_j47802986004511_1_alg».proof.Proof.KSums
import proofs.«400048_j47802986004511_1_alg».proof.Proof.KTile
import proofs.«400048_j47802986004511_1_alg».proof.Proof.Spec

noncomputable section

open scoped BigOperators
open Idealize.ShloMosaic Idealize.ShloMosaic.TcCoe Idealize.SL.Sem

namespace Cert.KernelIdeal.Acc

open Cert.KernelIdeal Cert.KernelIdeal.Gen Idealize.ShloMosaic.ValueIdx Cert.ClassStats

variable (m : (ℓ : Loc nD τ sig) → Buf (Elt Ideal) ℓ)

/-- The feature array as launched. -/
abbrev feat (c : Dev nD) : (⟨2, ![524288, 256]⟩ : Shape).Idx → EReal := m ((c : Thread nD τ).loc main_arg0)
/-- The label vector as launched. -/
abbrev labs (c : Dev nD) : (⟨1, ![524288]⟩ : Shape).Idx → BitVec 32 := m ((c : Thread nD τ).loc main_arg1)
/-- The feature block staged at point t. -/
abbrev fblk (c : Dev nD) (t : Fin cfg0.N) : Vec Ideal S8192x256 .f32 := iblk m c 0 t
/-- The label block staged at point t. -/
abbrev lblk (c : Dev nD) (t : Fin cfg0.N) : Vec Ideal S1x8192 .i32 := iblk m c 1 t

/-- A tile's one-hot product with a row family that reads the feature block is the tile's contribution to the class sum
    of the family over the feature array's rows. -/
theorem tile_contrib (c : Dev nD) (t : Fin cfg0.N) (r : Fin 24) (g : Fin 8192 → EReal) (f : Fin 524288 → EReal)
    (hgf : ∀ (k : Fin 8192) (hk : t.val * 8192 + k.val < 524288), g k = f ⟨t.val * 8192 + k.val, hk⟩) :
    ∑ k : Fin 8192, Tile.hot (lblk m c t) r k * g k
      = ∑ k : Fin 8192, contrib (labs m c) r.val f (t.val * 8192 + k.val) := by
  have hN : cfg0.N = 64 := N_0
  have ht : t.val < 64 := lt_of_lt_of_eq t.isLt hN
  refine Finset.sum_congr rfl fun k _ => ?_
  have hk : t.val * 8192 + k.val < 524288 := by have := k.isLt; omega
  rw [contrib_tile (labs m c) r f t.val ht k]
  unfold Tile.hot
  rw [show lblk m c t (ix2 (0 : Fin 1) k) = labs m c (ix1 (⟨t.val * 8192 + k.val, hk⟩ : Fin 524288)) from
    Blocks.label_block m c t k hk, hgf k hk]

/-- The tile's feature sums. -/
theorem tile_sum (c : Dev nD) (t : Fin cfg0.N) (r : Fin 24) (a : Fin 256) :
    ∑ k : Fin 8192, Tile.hot (lblk m c t) r k * fblk m c t (ix2 k a)
      = ∑ k : Fin 8192, contrib (labs m c) r.val (fun e => feat m c (ix2 e a)) (t.val * 8192 + k.val) :=
  tile_contrib m c t r (fun k => fblk m c t (ix2 k a)) (fun e => feat m c (ix2 e a))
    (fun k hk => Blocks.feature_block m c t k a hk)

/-- The tile's sums of squares. -/
theorem tile_sq (c : Dev nD) (t : Fin cfg0.N) (r : Fin 24) (a : Fin 256) :
    ∑ k : Fin 8192, Tile.hot (lblk m c t) r k * (fblk m c t (ix2 k a) * fblk m c t (ix2 k a))
      = ∑ k : Fin 8192, contrib (labs m c) r.val (fun e => feat m c (ix2 e a) * feat m c (ix2 e a)) (t.val * 8192 + k.val) :=
  tile_contrib m c t r (fun k => fblk m c t (ix2 k a) * fblk m c t (ix2 k a))
    (fun e => feat m c (ix2 e a) * feat m c (ix2 e a))
    (fun k hk => by
      show fblk m c t (ix2 k a) * fblk m c t (ix2 k a) = _
      rw [show fblk m c t (ix2 k a) = feat m c (ix2 (⟨t.val * 8192 + k.val, hk⟩ : Fin 524288) a) from
        Blocks.feature_block m c t k a hk])

/-- The tile's counts. -/
theorem tile_count (c : Dev nD) (t : Fin cfg0.N) (r : Fin 24) :
    ∑ k : Fin 8192, Tile.hot (lblk m c t) r k
      = ∑ k : Fin 8192, contrib (labs m c) r.val (fun _ => (1 : EReal)) (t.val * 8192 + k.val) := by
  have h := tile_contrib m c t r (fun _ => (1 : EReal)) (fun _ => (1 : EReal)) (fun _ _ => rfl)
  simpa only [mul_one] using h

/-- After point n the first scratch buffer holds the class sums of the features over the first n + 1 tiles. -/
theorem sums_after (c : Dev nD) : ∀ (n : ℕ) (hn : n < cfg0.N) (r : Fin 24) (a : Fin 256),
    ((outsAt0 m c n hn).2.1 : Vec Ideal S24x256 .f32) (ix2 r a)
      = upTo (labs m c) r.val (fun e => feat m c (ix2 e a)) (n + 1)
  | 0, hn, r, a => by
    refine (congrFun (Pieces.first0 m c ⟨0, hn⟩ rfl (by show ¬(0 : ℕ) % 64 = 63; decide)) (ix2 r a)).trans ?_
    refine (Tile.sum_tile (fblk m c ⟨0, hn⟩) (lblk m c ⟨0, hn⟩) _ r a).trans ?_
    rw [Tile.zero_sum, tile_sum m c ⟨0, hn⟩ r a, upTo_succ, upTo_zero]
  | n + 1, hn, r, a => by
    have hN : cfg0.N = 64 := N_0
    have ih := sums_after c n (Nat.lt_of_succ_lt hn) r a
    refine (congrFun (Pieces.later0 m c ⟨n + 1, hn⟩ (by dsimp only; omega)) (ix2 r a)).trans ?_
    refine (Tile.sum_tile (fblk m c ⟨n + 1, hn⟩) (lblk m c ⟨n + 1, hn⟩) _ r a).trans ?_
    rw [tile_sum m c ⟨n + 1, hn⟩ r a, upTo_succ _ _ _ (n + 1)]
    exact congrArg (fun z => z + _) ih

/-- After point n the second scratch buffer holds the class sums of the squared features over the first n + 1 tiles. -/
theorem squares_after (c : Dev nD) : ∀ (n : ℕ) (hn : n < cfg0.N) (r : Fin 24) (a : Fin 256),
    ((outsAt0 m c n hn).2.2.1 : Vec Ideal S24x256 .f32) (ix2 r a)
      = upTo (labs m c) r.val (fun e => feat m c (ix2 e a) * feat m c (ix2 e a)) (n + 1)
  | 0, hn, r, a => by
    refine (congrFun (Pieces.first1 m c ⟨0, hn⟩ rfl (by show ¬(0 : ℕ) % 64 = 63; decide)) (ix2 r a)).trans ?_
    refine (Tile.sq_tile (fblk m c ⟨0, hn⟩) (lblk m c ⟨0, hn⟩) _ r a).trans ?_
    rw [Tile.zero_sq, tile_sq m c ⟨0, hn⟩ r a, upTo_succ, upTo_zero]
  | n + 1, hn, r, a => by
    have hN : cfg0.N = 64 := N_0
    have ih := squares_after c n (Nat.lt_of_succ_lt hn) r a
    refine (congrFun (Pieces.later1 m c ⟨n + 1, hn⟩ (by dsimp only; omega)) (ix2 r a)).trans ?_
    refine (Tile.sq_tile (fblk m c ⟨n + 1, hn⟩) (lblk m c ⟨n + 1, hn⟩) _ r a).trans ?_
    rw [tile_sq m c ⟨n + 1, hn⟩ r a, upTo_succ _ _ _ (n + 1)]
    exact congrArg (fun z => z + _) ih

/-- After point n the third scratch buffer holds the class counts over the first n + 1 tiles. -/
theorem counts_after (c : Dev nD) : ∀ (n : ℕ) (hn : n < cfg0.N) (r : Fin 24),
    ((outsAt0 m c n hn).2.2.2 : Vec Ideal S24x1 .f32) (ix2 r (0 : Fin 1))
      = upTo (labs m c) r.val (fun _ => (1 : EReal)) (n + 1)
  | 0, hn, r => by
    refine (congrFun (Pieces.first2 m c ⟨0, hn⟩ rfl (by show ¬(0 : ℕ) % 64 = 63; decide)) (ix2 r (0 : Fin 1))).trans ?_
    refine (Tile.count_tile (lblk m c ⟨0, hn⟩) _ r).trans ?_
    rw [Tile.zero_count, tile_count m c ⟨0, hn⟩ r, upTo_succ, upTo_zero]
  | n + 1, hn, r => by
    have hN : cfg0.N = 64 := N_0
    have ih := counts_after c n (Nat.lt_of_succ_lt hn) r
    refine (congrFun (Pieces.later2 m c ⟨n + 1, hn⟩ (by dsimp only; omega)) (ix2 r (0 : Fin 1))).trans ?_
    refine (Tile.count_tile (lblk m c ⟨n + 1, hn⟩) _ r).trans ?_
    rw [tile_count m c ⟨n + 1, hn⟩ r, upTo_succ _ _ _ (n + 1)]
    exact congrArg (fun z => z + _) ih

end Cert.KernelIdeal.Acc

end
-- ==== Proof.KFinal.lean ====
import proofs.«400048_j47802986004511_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

/-!
# The merge step's arithmetic at the extended reals, entry by entry

At the last grid point the kernel body merges the first nineteen rows of the three running
statistics (the count column `n`, the sums `s`, the sums of squares `q`) with the stored mean `mu`,
the stored second moment `cov` and the stored amount column `am`. Writing

* `m = max n 1` for the guarded count,
* `mean = s / m` and `var = q / m - mean * mean` for the tile statistics,
* `w = n / (n + am)` for the weight of the new data,

the three results are `cov * (1 - w) + var * w + (w * (1 - w)) * ((mu - mean) * (mu - mean))`, the
mean `mu * (1 - w) + mean * w`, and the amount `am + n`. The body guards `w` by a select on the
comparison `w ≠ w`; over the extended reals that comparison is never true, so the select returns `w`.
Columns are broadcast along the feature axis, so every formula is read at one row `c` and one
feature `a`, with the column entries at `(c, 0)`.
-/

noncomputable section

namespace Cert.KernelIdeal.Final

open Cert.KernelIdeal Cert.KernelIdeal.Gen Idealize.ShloMosaic Idealize.ShloMosaic.ValueIdx

/-- A column `[m, 1]` broadcast to `[m, n]` reads, at `(p, c)`, the column's entry of row `p`. -/
theorem bcast_col {α : Type} {m n : ℕ} (v : (⟨2, ![m, 1]⟩ : Shape).Idx → α)
    (h : (⟨2, ![m, 1]⟩ : Shape).Broadcasts ⟨2, ![m, n]⟩) (p : Fin m) (c : Fin n) :
    broadcastTo ⟨2, ![m, n]⟩ v h (ix2 p c) = v (ix2 p (0 : Fin 1)) := by
  refine broadcastTo_apply v h (ix2 p c) (ix2 p (0 : Fin 1)) fun ax => ?_
  match ax with
  | ⟨0, _⟩ =>
    show p.val = if m = 1 then 0 else p.val
    split
    · have := p.isLt; omega
    · rfl
  | ⟨1, _⟩ => rfl

/-- Over the extended reals nothing differs from itself: the comparison `x ≠ x` is the bit `0`. -/
theorem cmp_one_self (x : EReal) : Ideal.cmp .one x x = 0#1 := by
  unfold Ideal.cmp
  simp

/-- The guarded count: the larger of the count and one. -/
theorem guard_at (n : Vec Ideal S19x1 .f32) (j : S19x1.Idx) :
    k0_pay2 (F := Ideal) n j = max (n j) 1 := by
  show max (n j) (Ideal.ofBits .f32 0x3F800000#32) = _
  rw [Ideal.ofBits_one_f32]

/-- The stored amount column passes through its shape cast unchanged. -/
theorem amount_cast (am : Vec Ideal S19x1 .f32) : k0_pay4 (F := Ideal) am = am :=
  shapeCast_self am _

/-- The weight of the new data: the select on `w ≠ w` returns `w = n / (n + am)`. -/
theorem weight_at (n am : Vec Ideal S19x1 .f32) (j : S19x1.Idx) :
    k0_pay5 (F := Ideal) n am j = Ideal.div (n j) (n j + am j) := by
  unfold k0_pay5
  rw [amount_cast]
  show Scalar.select (Ideal.cmp .one (Ideal.div (n j) (n j + am j)) (Ideal.div (n j) (n j + am j)))
      _ (Ideal.div (n j) (n j + am j)) = _
  rw [cmp_one_self, select_zero]

/-- The tile mean: the sum over the guarded count. -/
theorem tmean_at (n : Vec Ideal S19x1 .f32) (s : Vec Ideal S19x256 .f32) (c : Fin 19) (a : Fin 256) :
    k0_pay3 (F := Ideal) n s (ix2 c a)
      = Ideal.div (s (ix2 c a)) (max (n (ix2 c (0 : Fin 1))) 1) := by
  unfold k0_pay3
  rw [divf_apply, bcast_col, guard_at]

/-- The word of `1.0` is the extended real one. -/
theorem one_word : Scalar.ofBits (F := Ideal) .f32 0x3F800000#32 = 1 := Ideal.ofBits_one_f32

/-- The column of ones minus the weight, at an entry: `1 - w`. -/
theorem coweight_at (n am : Vec Ideal S19x1 .f32) (j : S19x1.Idx) :
    subf (broadcast S19x1 (Scalar.ofBits (F := Ideal) .f32 0x3F800000#32)) (k0_pay5 (F := Ideal) n am) j
      = 1 - Ideal.div (n j) (n j + am j) := by
  rw [subf_apply, broadcast_apply, one_word, weight_at]

/-- The merged amount: the stored amount plus the count. -/
theorem amount_at (n am : Vec Ideal S19x1 .f32) (c : Fin 19) :
    k0_pay8 (F := Ideal) n am (ix2 c (0 : Fin 1)) = am (ix2 c (0 : Fin 1)) + n (ix2 c (0 : Fin 1)) := by
  unfold k0_pay8
  rw [amount_cast, addf_apply]

/-- The merged mean: the stored mean weighted by `1 - w` plus the tile mean weighted by `w`. -/
theorem mean_at (n : Vec Ideal S19x1 .f32) (s mu : Vec Ideal S19x256 .f32) (am : Vec Ideal S19x1 .f32) (c : Fin 19) (a : Fin 256) :
    k0_pay7 (F := Ideal) n s mu am (ix2 c a)
      = mu (ix2 c a) * (1 - Ideal.div (n (ix2 c (0 : Fin 1))) (n (ix2 c (0 : Fin 1)) + am (ix2 c (0 : Fin 1))))
        + Ideal.div (s (ix2 c a)) (max (n (ix2 c (0 : Fin 1))) 1)
          * Ideal.div (n (ix2 c (0 : Fin 1))) (n (ix2 c (0 : Fin 1)) + am (ix2 c (0 : Fin 1))) := by
  unfold k0_pay7
  rw [addf_apply, mulf_apply, mulf_apply, bcast_col, bcast_col, coweight_at, weight_at, tmean_at]

/-- The merged second moment: the stored one weighted by `1 - w`, the tile variance weighted by `w`, and the
    squared distance of the two means weighted by `w * (1 - w)`. -/
theorem cov_at (n : Vec Ideal S19x1 .f32) (s q mu cov : Vec Ideal S19x256 .f32) (am : Vec Ideal S19x1 .f32) (c : Fin 19) (a : Fin 256) :
    k0_pay6 (F := Ideal) n s q mu cov am (ix2 c a)
      = cov (ix2 c a) * (1 - Ideal.div (n (ix2 c (0 : Fin 1))) (n (ix2 c (0 : Fin 1)) + am (ix2 c (0 : Fin 1))))
        + (Ideal.div (q (ix2 c a)) (max (n (ix2 c (0 : Fin 1))) 1)
            - Ideal.div (s (ix2 c a)) (max (n (ix2 c (0 : Fin 1))) 1) * Ideal.div (s (ix2 c a)) (max (n (ix2 c (0 : Fin 1))) 1))
          * Ideal.div (n (ix2 c (0 : Fin 1))) (n (ix2 c (0 : Fin 1)) + am (ix2 c (0 : Fin 1)))
        + (Ideal.div (n (ix2 c (0 : Fin 1))) (n (ix2 c (0 : Fin 1)) + am (ix2 c (0 : Fin 1)))
            * (1 - Ideal.div (n (ix2 c (0 : Fin 1))) (n (ix2 c (0 : Fin 1)) + am (ix2 c (0 : Fin 1)))))
          * ((mu (ix2 c a) - Ideal.div (s (ix2 c a)) (max (n (ix2 c (0 : Fin 1))) 1))
              * (mu (ix2 c a) - Ideal.div (s (ix2 c a)) (max (n (ix2 c (0 : Fin 1))) 1))) := by
  unfold k0_pay6
  simp only [addf_apply, mulf_apply, subf_apply, divf_apply, bcast_col, broadcast_apply, one_word, weight_at,
    tmean_at, guard_at]

end Cert.KernelIdeal.Final

end
-- ==== Proof.KValue.lean ====
/-
  The kernel's result array is the specification. After the last grid point the first 19 rows of the three scratch
  buffers are the class counts, sums and sums of squares; the last point's three stores are the merged covariance, mean
  and amount computed from them and from the stored statistics, which is the specification column range by column
  range; the output window is written back once, after the last point, and its one block is the whole array.
-/
import proofs.«400048_j47802986004511_1_alg».proof.Proof.Gen.KernelIdeal.Value
import proofs.«400048_j47802986004511_1_alg».proof.Proof.KOut
import proofs.«400048_j47802986004511_1_alg».proof.Proof.KAcc
import proofs.«400048_j47802986004511_1_alg».proof.Proof.KFinal
import proofs.«400048_j47802986004511_1_alg».proof.Proof.Spec

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.ClassStats

variable (m : (ℓ : Loc nD τ sig) → Buf (Elt Ideal) ℓ) (ρ : Dev nD → PrngReg)

/-- The specification at the launch contents of the five argument arrays. -/
abbrev result (c : Dev nD) : Buf (Elt Ideal) ((c : Thread nD τ).loc main_v2) :=
  merged (m ((c : Thread nD τ).loc main_arg0)) (m ((c : Thread nD τ).loc main_arg1)) (m ((c : Thread nD τ).loc main_arg2)) (m ((c : Thread nD τ).loc main_arg3)) (m ((c : Thread nD τ).loc main_arg4))

/-- The last grid point. -/
abbrev tLast : Fin cfg0.N := ⟨63, by rw [show cfg0.N = 64 from N_0]; decide⟩

/-- The class counts as a point reads them after its own update: the first 19 rows of the count scratch. -/
abbrev cnt19 (c : Dev nD) (t : Fin cfg0.N) : Vec Ideal S19x1 .f32 := OutPiece.top1 (outsAt0 m c t.val t.isLt).2.2.2
/-- The class sums as the last point reads them. -/
abbrev sum19 (c : Dev nD) (t : Fin cfg0.N) : Vec Ideal S19x256 .f32 := OutPiece.top256 (outsAt0 m c t.val t.isLt).2.1
/-- The class sums of squares as the last point reads them. -/
abbrev sq19 (c : Dev nD) (t : Fin cfg0.N) : Vec Ideal S19x256 .f32 := OutPiece.top256 (outsAt0 m c t.val t.isLt).2.2.1
/-- The stored mean, covariance and amount blocks a point stages. -/
abbrev muB (c : Dev nD) (t : Fin cfg0.N) : Vec Ideal S19x256 .f32 := iblk m c 2 t
abbrev covB (c : Dev nD) (t : Fin cfg0.N) : Vec Ideal S19x256 .f32 := iblk m c 3 t
abbrev amB (c : Dev nD) (t : Fin cfg0.N) : Vec Ideal S19x1 .f32 := iblk m c 4 t

/-- The output block after the last point: the three merged statistics side by side, over the scratch as the last
    point's own update leaves it. -/
theorem out_form (c : Dev nD) (t : Fin cfg0.N) (h63 : t.val % 64 = 63) :
    (outsAt0 m c t.val t.isLt).1
      = OutPiece.sideBySide
          (k0_pay6 (cnt19 m c t) (sum19 m c t) (sq19 m c t) (muB m c t) (covB m c t) (amB m c t))
          (k0_pay7 (cnt19 m c t) (sum19 m c t) (muB m c t) (amB m c t))
          (k0_pay8 (cnt19 m c t) (amB m c t)) := by
  have h0 : ¬t.val % 64 = 0 := by omega
  have e := OutPiece.last_out m c t h0 h63
  rw [← Pieces.later0 m c t h0, ← Pieces.later1 m c t h0, ← Pieces.later2 m c t h0] at e
  exact e

/-- What the last point reads of the counts, sums and squares, and of the stored statistics, entry by entry. -/
theorem cnt19_at (c : Dev nD) (t : Fin cfg0.N) (h63 : t.val % 64 = 63) (r : Fin 19) :
    cnt19 m c t (ix2 r (0 : Fin 1)) = count (Acc.labs m c) r.val := by
  have hN : cfg0.N = 64 := N_0
  have ht : t.val + 1 = 64 := by have := t.isLt; omega
  refine (OutPiece.top1_apply _ r).trans ?_
  rw [Acc.counts_after m c t.val t.isLt ⟨r.val, by omega⟩, ht, upTo_all]
  rfl
theorem sum19_at (c : Dev nD) (t : Fin cfg0.N) (h63 : t.val % 64 = 63) (r : Fin 19) (a : Fin 256) :
    sum19 m c t (ix2 r a) = rowSum (Acc.feat m c) (Acc.labs m c) r.val a := by
  have hN : cfg0.N = 64 := N_0
  have ht : t.val + 1 = 64 := by have := t.isLt; omega
  refine (OutPiece.top256_apply _ r a).trans ?_
  rw [Acc.sums_after m c t.val t.isLt ⟨r.val, by omega⟩ a, ht, upTo_all]
  rfl
theorem sq19_at (c : Dev nD) (t : Fin cfg0.N) (h63 : t.val % 64 = 63) (r : Fin 19) (a : Fin 256) :
    sq19 m c t (ix2 r a) = sqSum (Acc.feat m c) (Acc.labs m c) r.val a := by
  have hN : cfg0.N = 64 := N_0
  have ht : t.val + 1 = 64 := by have := t.isLt; omega
  refine (OutPiece.top256_apply _ r a).trans ?_
  rw [Acc.squares_after m c t.val t.isLt ⟨r.val, by omega⟩ a, ht, upTo_all]
  rfl
theorem muB_at (c : Dev nD) (t : Fin cfg0.N) (r : Fin 19) (a : Fin 256) : muB m c t (ix2 r a) = m ((c : Thread nD τ).loc main_arg2) (ix2 r a) :=
  Blocks.mean_block m c t r a
theorem covB_at (c : Dev nD) (t : Fin cfg0.N) (r : Fin 19) (a : Fin 256) : covB m c t (ix2 r a) = m ((c : Thread nD τ).loc main_arg3) (ix2 r a) :=
  Blocks.cov_block m c t r a
theorem amB_at (c : Dev nD) (t : Fin cfg0.N) (r : Fin 19) : amB m c t (ix2 r (0 : Fin 1)) = m ((c : Thread nD τ).loc main_arg4) (ix1 r) :=
  Blocks.amount_block m c t r

/-- A covariance entry of the last point's output is the specification's merged covariance. -/
theorem cov_entry (c : Dev nD) (t : Fin cfg0.N) (h63 : t.val % 64 = 63) (r : Fin 19) (a : Fin 256) :
    k0_pay6 (F := Ideal) (cnt19 m c t) (sum19 m c t) (sq19 m c t) (muB m c t) (covB m c t) (amB m c t) (ix2 r a)
      = newCov (m ((c : Thread nD τ).loc main_arg0)) (m ((c : Thread nD τ).loc main_arg1)) (m ((c : Thread nD τ).loc main_arg2)) (m ((c : Thread nD τ).loc main_arg3)) (m ((c : Thread nD τ).loc main_arg4)) r a := by
  refine (Final.cov_at (cnt19 m c t) (sum19 m c t) (sq19 m c t) (muB m c t) (covB m c t) (amB m c t) r a).trans ?_
  rw [cnt19_at m c t h63, sum19_at m c t h63, sq19_at m c t h63, muB_at, covB_at, amB_at]
  rfl

/-- A mean entry of the last point's output is the specification's merged mean. -/
theorem mean_entry (c : Dev nD) (t : Fin cfg0.N) (h63 : t.val % 64 = 63) (r : Fin 19) (a : Fin 256) :
    k0_pay7 (F := Ideal) (cnt19 m c t) (sum19 m c t) (muB m c t) (amB m c t) (ix2 r a)
      = newMean (m ((c : Thread nD τ).loc main_arg0)) (m ((c : Thread nD τ).loc main_arg1)) (m ((c : Thread nD τ).loc main_arg2)) (m ((c : Thread nD τ).loc main_arg4)) r a := by
  refine (Final.mean_at (cnt19 m c t) (sum19 m c t) (muB m c t) (amB m c t) r a).trans ?_
  rw [cnt19_at m c t h63, sum19_at m c t h63, muB_at, amB_at]
  rfl

/-- The amount entry of the last point's output is the specification's merged amount. -/
theorem amount_entry (c : Dev nD) (t : Fin cfg0.N) (h63 : t.val % 64 = 63) (r : Fin 19) :
    k0_pay8 (F := Ideal) (cnt19 m c t) (amB m c t) (ix2 r (0 : Fin 1))
      = newAmount (m ((c : Thread nD τ).loc main_arg1)) (m ((c : Thread nD τ).loc main_arg4)) r := by
  refine (Final.amount_at (cnt19 m c t) (amB m c t) r).trans ?_
  rw [cnt19_at m c t h63, amB_at]
  rfl

/-- So the output block after the last point is the specification. -/
theorem out_eq (c : Dev nD) (t : Fin cfg0.N) (h63 : t.val % 64 = 63) :
    ((outsAt0 m c t.val t.isLt).1 : Vec Ideal S19x513 .f32) = result m c := by
  rw [out_form m c t h63]
  funext y
  obtain ⟨r, j, rfl⟩ : ∃ (r : Fin 19) (j : Fin 513), y = ix2 r j := ⟨y 0, y 1, eq_ix2 y⟩
  by_cases h1 : j.val < 256
  · have ej : j = (⟨(⟨j.val, h1⟩ : Fin 256).val, by omega⟩ : Fin 513) := rfl
    rw [ej, OutPiece.sideBySide_left, cov_entry m c t h63]
    exact (merged_cov _ _ _ _ _ r _ ⟨j.val, h1⟩ rfl).symm
  · by_cases h2 : j.val < 512
    · have ej : j = (⟨256 + (⟨j.val - 256, by omega⟩ : Fin 256).val, by have := j.isLt; omega⟩ : Fin 513) :=
        Fin.ext (by show j.val = 256 + (j.val - 256); omega)
      rw [ej, OutPiece.sideBySide_mid, mean_entry m c t h63]
      exact (merged_mean _ _ _ _ _ r _ ⟨j.val - 256, by omega⟩ (by show 256 + (j.val - 256) = 256 + (j.val - 256); rfl)).symm
    · have ej : j = (⟨512, by omega⟩ : Fin 513) := Fin.ext (by have := j.isLt; show j.val = 512; omega)
      rw [ej, OutPiece.sideBySide_right, amount_entry m c t h63]
      exact (merged_amount _ _ _ _ _ r _ rfl).symm

/-- The one write-back, after the last point, writes the specification: the output window's block is the whole array. -/
theorem flushed_eq (c : Dev nD) (t : Fin cfg0.N) (hf : (cfg0.win 5).flush t = true) :
    (dats m 0 c).flushed 5 t = ((cfg0.win 5).blk t).view.read (Elt Ideal) (result m c) := by
  have hN : cfg0.N = 64 := N_0
  have h63 : t.val % 64 = 63 := (flush0_5 t).mp hf
  rw [Value.flushed5, out_eq m c t h63]
  obtain rfl : t = tLast := Fin.ext (by have := t.isLt; show t.val = 63; omega)
  have hz' : (fun a => win0_5.index tLast a * main_v2.ty.shape.size a) = fun _ => 0 :=
    funext fun a => by fin_cases a <;> decide
  exact (Memref.read_access_unit_zero (Elt Ideal) main_v2 hz' (fun a => by rw [congrFun hz' a]; simp) (result m c)).symm

/-- Every index of the result array lies in the block the last point writes back. -/
theorem covered (i : S19x513.Idx) : i ∈ ((cfg0.win 5).blk tLast).view.set := by
  show i ∈ ((View.whole main_v2).slice (win0_5.rect tLast)).set
  rw [View.set_slice_whole, Rect.mem_set_unit]
  intro a
  have hr : (i 0 : Nat) < 19 := (i 0).isLt
  have hc : (i 1 : Nat) < 513 := (i 1).isLt
  match a with
  | ⟨0, _⟩ =>
    show win0_5.index tLast 0 * win0_5.size 0 ≤ (i 0 : Nat)
      ∧ (i 0 : Nat) < win0_5.index tLast 0 * win0_5.size 0 + win0_5.xsize (grid0.coords tLast) 0
    rw [show win0_5.index tLast 0 * win0_5.size 0 = 0 from by decide +kernel,
      show win0_5.xsize (grid0.coords tLast) 0 = 19 from by decide +kernel]
    omega
  | ⟨1, _⟩ =>
    show win0_5.index tLast 1 * win0_5.size 1 ≤ (i 1 : Nat)
      ∧ (i 1 : Nat) < win0_5.index tLast 1 * win0_5.size 1 + win0_5.xsize (grid0.coords tLast) 1
    rw [show win0_5.index tLast 1 * win0_5.size 1 = 0 from by decide +kernel,
      show win0_5.xsize (grid0.coords tLast) 1 = 513 from by decide +kernel]
    omega

/-- The result array after the run is the specification. -/
theorem final (c : Dev nD) : (dats m 0 c).arrAt 5 cfg0.N = result m c :=
  (dats m 0 c).arrAt_eq_of_cover 5 (result m c) (flushed_eq m c) fun i =>
    ⟨tLast, (flush0_5 tLast).mpr rfl, covered i⟩

/-- The kernel's run: every weakly fair execution ends with the result array at the specification and the arguments
    unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.RefLabels.lean ====
/-
  The label side of the reference program. Every row's label word passes through two small stages before it steers a
  sum: the word 255 (the ignored label) is routed to class 0, every other word is kept; and a row counts with weight 1
  unless its word is 255, when it counts with weight 0. This file reads those stages at a row, says which rows a
  scatter-add of the program sends to a class below 19, and proves the one summation fact the three scatter-adds share:
  the sum over the rows sent to class c of terms that vanish on the ignored rows is the sum over the members of c.
-/
import proofs.«400048_j47802986004511_1_alg».proof.Proof.Gen.ReferenceIdeal.Read
import proofs.«400048_j47802986004511_1_alg».proof.Proof.Spec
import proofs.«400048_j47802986004511_1_alg».proof.Proof.LibGatherScatter
import Idealize.ShloMosaic.Lib.IdealHost
import Idealize.ShloMosaic.Lib.Affine

noncomputable section

open scoped BigOperators

namespace Cert.ReferenceIdeal.RefValue

open Cert.ReferenceIdeal Cert.ReferenceIdeal.Gen Cert.ReferenceIdeal.Read Cert.ClassStats
open Idealize.ShloMosaic Idealize.ShloMosaic.ValueIdx Idealize.ShloMosaic.RowOps
open Idealize.ShloMosaic.StableHlo.Predicate

/-- The class a label word is routed to: class 0 for the ignored word 255, the word itself otherwise. -/
def routed (l : BitVec 32) : BitVec 32 := if l = 255#32 then 0#32 else l

/-- The weight a row counts with: 0 for the ignored word 255, 1 otherwise. -/
def kept (l : BitVec 32) : EReal := if l = 255#32 then 0 else 1

/-! ## Positions -/

theorem col_row (e : Fin 524288) : idx_main_v7 (ixP e) = ix1 e :=
  funext fun a => by match a with | ⟨0, _⟩ => rfl

theorem flat_row (e : Fin 524288) : idx_main_v4 (idx_main_v5 (ix1 e)) = ix1 e :=
  funext fun a => by match a with | ⟨0, _⟩ => exact Fin.ext (Nat.div_one _)

theorem wide_row (e : Fin 524288) (a : Fin 256) : idx_main_v4 (idx_main_v11 (ix2 e a)) = ix1 e :=
  funext fun b => by match b with | ⟨0, _⟩ => rfl

/-! ## The two stages at a row -/

/-- The comparison with 255 at a word that is 255. -/
theorem ne255_self : IntOp.cmpi .ne (255#32 : BitVec 32) 255#32 = 0#1 := by decide

/-- The comparison with 255 at any other word. -/
theorem ne255_of_ne {l : BitVec 32} (h : l ≠ 255#32) : IntOp.cmpi .ne l 255#32 = 1#1 := IntOp.cmpi_ne.2 h

/-- The routed label of row e. -/
theorem routed_at (x1 : (⟨S524288, .i32⟩ : BufTy).Contents (Elt Ideal)) (e : Fin 524288) :
    val_main_v2 (F := Ideal) x1 (ix1 e) = routed (x1 (ix1 e)) := by
  rw [val_main_v2_apply, val_main_v1_apply, val_main_v0_apply, val_main_c_apply, val_main_call0_v1_apply,
    val_main_call0_v0_apply, val_main_c_0_apply]
  unfold routed
  by_cases h : x1 (ix1 e) = 255#32
  · rw [if_pos h, h, ne255_self, select_zero]
  · rw [if_neg h, ne255_of_ne h, select_one]

/-- The weight of row e. -/
theorem kept_at (x1 : (⟨S524288, .i32⟩ : BufTy).Contents (Elt Ideal)) (e : Fin 524288) :
    val_main_v3 (F := Ideal) x1 (ix1 e) = kept (x1 (ix1 e)) := by
  rw [val_main_v3_apply, val_main_v1_apply, val_main_v0_apply, val_main_c_apply]
  unfold kept
  by_cases h : x1 (ix1 e) = 255#32
  · rw [if_pos h, h, ne255_self]
    show (((0#1 : BitVec 1).toNat : ℝ) : EReal) = 0
    simp
  · rw [if_neg h, ne255_of_ne h]
    show (((1#1 : BitVec 1).toNat : ℝ) : EReal) = 1
    simp

/-- The column of routed labels the scatter-adds are steered by, at row e. -/
theorem routed_col (x1 : (⟨S524288, .i32⟩ : BufTy).Contents (Elt Ideal)) (e : Fin 524288) :
    val_main_v7 (F := Ideal) x1 (ixP e) = routed (x1 (ix1 e)) := by
  rw [val_main_v7_apply, col_row, routed_at]

/-- The weights as the count's updates, at row e. -/
theorem kept_flat (x1 : (⟨S524288, .i32⟩ : BufTy).Contents (Elt Ideal)) (e : Fin 524288) :
    val_main_v5 (F := Ideal) x1 (ix1 e) = kept (x1 (ix1 e)) := by
  rw [val_main_v5_apply, val_main_v4_apply, flat_row, kept_at]

/-- The weights spread over the features, at row e and feature a. -/
theorem kept_wide (x1 : (⟨S524288, .i32⟩ : BufTy).Contents (Elt Ideal)) (e : Fin 524288) (a : Fin 256) :
    val_main_v11 (F := Ideal) x1 (ix2 e a) = kept (x1 (ix1 e)) := by
  rw [val_main_v11_apply, val_main_v4_apply, wide_row, kept_at]

/-! ## Which rows a class receives -/

/-- The word 255 reads signed as 255. -/
theorem toInt_255 : (255#32 : BitVec 32).toInt = 255 := by decide

/-- A word that reads signed as a class below 19 is not the ignored word. -/
theorem ne255_of_class {l : BitVec 32} {c : Fin 19} (h : l.toInt = (c.val : Int)) : l ≠ 255#32 := by
  intro h255
  rw [h255, toInt_255] at h
  have := c.isLt
  omega

/-- Row e is a member of class c exactly when the scatter-adds send it to c and it is not ignored. -/
theorem mem_members_iff (x1 : (⟨S524288, .i32⟩ : BufTy).Contents (Elt Ideal)) (c : Fin 19) (e : Fin 524288) :
    e ∈ members x1 c.val ↔ lands (val_main_v7 (F := Ideal) x1) e c.val ∧ x1 (ix1 e) ≠ 255#32 := by
  constructor
  · intro h
    have hl : (x1 (ix1 e)).toInt = (c.val : Int) := (Finset.mem_filter.1 h).2
    have hne : x1 (ix1 e) ≠ 255#32 := ne255_of_class hl
    refine ⟨?_, hne⟩
    show (val_main_v7 (F := Ideal) x1 (ixP e)).toInt = (c.val : Int)
    rw [routed_col, routed, if_neg hne]
    exact hl
  · rintro ⟨hl, hne⟩
    refine Finset.mem_filter.2 ⟨Finset.mem_univ _, ?_⟩
    have hl' : (val_main_v7 (F := Ideal) x1 (ixP e)).toInt = (c.val : Int) := hl
    rw [routed_col, routed, if_neg hne] at hl'
    exact hl'

/-- THE SHARED SUM. Terms u e that agree with g e on the members of class c and vanish on the ignored rows: their sum
    over the rows the scatter-adds send to c is the sum of g over the members of c. -/
theorem sum_landed (x1 : (⟨S524288, .i32⟩ : BufTy).Contents (Elt Ideal)) (c : Fin 19) (u g : Fin 524288 → EReal)
    (hu : ∀ e, e ∈ members x1 c.val → u e = g e) (hz : ∀ e, x1 (ix1 e) = 255#32 → u e = 0) :
    ∑ e ∈ Finset.univ.filter (fun e : Fin 524288 => lands (val_main_v7 (F := Ideal) x1) e c.val), u e
      = ∑ e ∈ members x1 c.val, g e := by
  have hmem : members x1 c.val
      = (Finset.univ.filter (fun e : Fin 524288 => lands (val_main_v7 (F := Ideal) x1) e c.val)).filter
          (fun e => x1 (ix1 e) ≠ 255#32) := by
    ext e
    rw [mem_members_iff, Finset.mem_filter, Finset.mem_filter]
    exact ⟨fun h => ⟨⟨Finset.mem_univ _, h.1⟩, h.2⟩, fun h => ⟨h.1.2, h.2⟩⟩
  rw [hmem, Finset.sum_filter (fun e => x1 (ix1 e) ≠ 255#32)]
  refine Finset.sum_congr rfl fun e he => ?_
  have hl : lands (val_main_v7 (F := Ideal) x1) e c.val := (Finset.mem_filter.1 he).2
  by_cases h : x1 (ix1 e) = 255#32
  · rw [if_neg (not_not.2 h), hz e h]
  · rw [if_pos h]
    exact hu e ((mem_members_iff x1 c e).2 ⟨hl, h⟩)

end Cert.ReferenceIdeal.RefValue

end
-- ==== Proof.RefCount.lean ====
/-
  The per-class count of the reference program and what is built from it alone: the divisor of the averages
  (the count, or one for an empty class), the weight of the new statistics against the stored ones, its complement,
  and the merged amount.
-/
import proofs.«400048_j47802986004511_1_alg».proof.Proof.RefLabels

noncomputable section

open scoped BigOperators

namespace Cert.ReferenceIdeal.RefValue

open Cert.ReferenceIdeal Cert.ReferenceIdeal.Gen Cert.ReferenceIdeal.Read Cert.ClassStats
open Idealize.ShloMosaic Idealize.ShloMosaic.ValueIdx Idealize.ShloMosaic.RowOps
open Idealize.ShloMosaic.StableHlo.Predicate

/-! ## Positions -/

theorem wide_class (c : Fin 19) (a : Fin 256) : idx_main_v16 (idx_main_v17 (ix2 c a)) = ix1 c :=
  funext fun b => by match b with | ⟨0, _⟩ => rfl

theorem col_class (c : Fin 19) : idx_main_v36 (ixP c) = ix1 c :=
  funext fun b => by match b with | ⟨0, _⟩ => rfl

theorem wide_col (c : Fin 19) (a : Fin 256) : idx_main_v54 (ix2 c a) = ixP c :=
  funext fun b => by match b with | ⟨0, _⟩ => rfl | ⟨1, _⟩ => rfl

/-! ## The count -/

/-- The scatter-add of the weights: class c receives one for each of its members. -/
theorem count_at (x1 : (⟨S524288, .i32⟩ : BufTy).Contents (Elt Ideal)) (c : Fin 19) :
    val_main_v8 (F := Ideal) x1 (ix1 c) = count x1 c.val := by
  unfold val_main_v8 Host.scatterAdd
  rw [Ideal.hostScatterAdd_def, scatterAdd_row1 _ rfl rfl rfl rfl, val_main_v6_apply, val_main_cst_apply,
    Ideal.ofBits_def, Ideal.ofBits_zero_f32, zero_add]
  refine sum_landed x1 c _ (fun _ => 1) (fun e he => ?_) (fun e h => ?_)
  · rw [kept_flat, kept, if_neg ((mem_members_iff x1 c e).1 he).2]
  · rw [kept_flat, kept, if_pos h]

/-- The divisor of class c's averages, spread over the features. -/
theorem denom_at (x1 : (⟨S524288, .i32⟩ : BufTy).Contents (Elt Ideal)) (c : Fin 19) (a : Fin 256) :
    val_main_v17 (F := Ideal) x1 (ix2 c a) = denom x1 c.val := by
  rw [val_main_v17_apply, val_main_v16_apply, wide_class, val_main_v10_apply, count_at, val_main_v9_apply,
    val_main_cst_1_apply, Ideal.ofBits_def, Ideal.ofBits_one_f32, Ideal.maximumf_def]
  rfl

/-- The same divisor, as the variance's quotient reads it. -/
theorem denom_at' (x1 : (⟨S524288, .i32⟩ : BufTy).Contents (Elt Ideal)) (c : Fin 19) (a : Fin 256) :
    val_main_v34 (F := Ideal) x1 (ix2 c a) = denom x1 c.val :=
  denom_at x1 c a

/-! ## The weight -/

/-- A value differs from itself nowhere among the extended reals. -/
theorem une_self (w : EReal) : FloatOps.cmpf (F := Ideal) (φ := .f32) .une w w = 0#1 := by
  rw [Ideal.cmpf_def]
  show BitVec.ofBool (decide (w ≠ w)) = 0#1
  rw [decide_eq_false (fun h => h rfl)]
  rfl

/-- The quotient count / (count + stored amount) of class c. -/
theorem ratio_at (x1 : (⟨S524288, .i32⟩ : BufTy).Contents (Elt Ideal)) (x4 : (⟨S19, .f32⟩ : BufTy).Contents (Elt Ideal))
    (c : Fin 19) : val_main_v40 (F := Ideal) x1 x4 (ixP c) = weight x1 x4 c := by
  rw [val_main_v40_apply, val_main_v36_apply, val_main_v39_apply, val_main_v37_apply, val_main_v38_apply, col_class,
    show idx_main_v37 (ixP c) = ix1 c from col_class c, show idx_main_v38 (ixP c) = ix1 c from col_class c, count_at,
    Ideal.hostDivf_def, Ideal.addf_def]
  rfl

/-- The weight of class c: the quotient, which no guard replaces. -/
theorem weight_at (x1 : (⟨S524288, .i32⟩ : BufTy).Contents (Elt Ideal)) (x4 : (⟨S19, .f32⟩ : BufTy).Contents (Elt Ideal))
    (c : Fin 19) : val_main_v42 (F := Ideal) x1 x4 (ixP c) = weight x1 x4 c := by
  rw [val_main_v42_apply, val_main_v41_apply, une_self, select_zero, ratio_at]

/-- One minus the weight of class c (the three places the program forms it are one expression). -/
theorem coweight_at (x1 : (⟨S524288, .i32⟩ : BufTy).Contents (Elt Ideal)) (x4 : (⟨S19, .f32⟩ : BufTy).Contents (Elt Ideal))
    (c : Fin 19) : val_main_v44 (F := Ideal) x1 x4 (ixP c) = 1 - weight x1 x4 c := by
  rw [val_main_v44_apply, val_main_v43_apply, val_main_cst_7_apply, Ideal.ofBits_def, Ideal.ofBits_one_f32, weight_at,
    Ideal.subf_def]

theorem coweight_at' (x1 : (⟨S524288, .i32⟩ : BufTy).Contents (Elt Ideal)) (x4 : (⟨S19, .f32⟩ : BufTy).Contents (Elt Ideal))
    (c : Fin 19) : val_main_v51 (F := Ideal) x1 x4 (ixP c) = 1 - weight x1 x4 c :=
  coweight_at x1 x4 c

theorem coweight_at'' (x1 : (⟨S524288, .i32⟩ : BufTy).Contents (Elt Ideal)) (x4 : (⟨S19, .f32⟩ : BufTy).Contents (Elt Ideal))
    (c : Fin 19) : val_main_v59 (F := Ideal) x1 x4 (ixP c) = 1 - weight x1 x4 c :=
  coweight_at x1 x4 c

/-! ## The merged amount -/

/-- The last output piece at class c: the stored amount plus the count. -/
theorem amount_piece (x1 : (⟨S524288, .i32⟩ : BufTy).Contents (Elt Ideal)) (x4 : (⟨S19, .f32⟩ : BufTy).Contents (Elt Ideal))
    (c : Fin 19) : val_main_v66 (F := Ideal) x1 x4 (ixP c) = newAmount x1 x4 c := by
  rw [val_main_v66_apply, show idx_main_v66 (ixP c) = ix1 c from col_class c, val_main_v65_apply, count_at,
    Ideal.addf_def]
  rfl

end Cert.ReferenceIdeal.RefValue

end
-- ==== Proof.VarianceLaw.lean ====
/-
  The variance of a finite family of real numbers two ways: the mean of the squared deviations from the mean is the mean
  of the squares minus the squared mean, with every quotient taken by max(n, 1) (n the family's size), so that the empty
  family gives 0 on both sides. Stated among the extended reals, where both programs compute it.
-/
import Idealize.ShloMosaic.PureOps.Ideal

noncomputable section

open scoped BigOperators

namespace Cert.ClassStats

open Idealize.ShloMosaic

/-- A finite sum of real numbers, taken among the extended reals, is the real sum. -/
private theorem sum_coe {ι : Type} (s : Finset ι) (g : ι → ℝ) :
    (∑ e ∈ s, ((g e : ℝ) : EReal)) = ((∑ e ∈ s, g e : ℝ) : EReal) := by
  classical
  induction s using Finset.induction_on with
  | empty => simp
  | insert a s ha ih => rw [Finset.sum_insert ha, Finset.sum_insert ha, ih, EReal.coe_add]

/-- The divisor max(|s|, 1) is the real number max(|s|, 1). -/
private theorem divisor_coe {ι : Type} (s : Finset ι) :
    max (∑ _e ∈ s, (1 : EReal)) 1 = ((max (s.card : ℝ) 1 : ℝ) : EReal) := by
  have h1 : (∑ _e ∈ s, (1 : EReal)) = (((s.card : ℝ)) : EReal) := by
    have := sum_coe s (fun _ => (1 : ℝ))
    simpa using this
  rw [h1, ← EReal.coe_one]
  exact (EReal.coe_strictMono.monotone.map_max).symm

/-- The identity among the reals: with n = |s|, d = max n 1 and μ = (Σ f) / d,
    (Σ (f − μ)²) / d = (Σ f²) / d − μ². If n = 0 every sum is empty; otherwise d = n and
    Σ (f − μ)² = Σ f² − 2 μ Σ f + n μ². -/
private theorem centered_sum_real {ι : Type} (s : Finset ι) (f : ι → ℝ) :
    (∑ e ∈ s, (f e - (∑ e ∈ s, f e) * (1 / max (s.card : ℝ) 1)) * (f e - (∑ e ∈ s, f e) * (1 / max (s.card : ℝ) 1)))
        * (1 / max (s.card : ℝ) 1)
      = (∑ e ∈ s, f e * f e) * (1 / max (s.card : ℝ) 1)
        - (∑ e ∈ s, f e) * (1 / max (s.card : ℝ) 1) * ((∑ e ∈ s, f e) * (1 / max (s.card : ℝ) 1)) := by
  generalize hμ : (∑ e ∈ s, f e) * (1 / max (s.card : ℝ) 1) = μ
  have hexp : (∑ e ∈ s, (f e - μ) * (f e - μ))
      = (∑ e ∈ s, f e * f e) - 2 * μ * (∑ e ∈ s, f e) + (s.card : ℝ) * (μ * μ) := by
    have : ∀ e ∈ s, (f e - μ) * (f e - μ) = f e * f e - 2 * μ * f e + μ * μ := fun e _ => by ring
    rw [Finset.sum_congr rfl this, Finset.sum_add_distrib, Finset.sum_sub_distrib, ← Finset.mul_sum,
      Finset.sum_const, nsmul_eq_mul]
  rw [hexp]
  rcases Nat.eq_zero_or_pos s.card with h0 | hpos
  · have hs : s = ∅ := Finset.card_eq_zero.mp h0
    subst hs
    have hμ0 : μ = 0 := by rw [← hμ]; simp
    rw [hμ0]; simp
  · have hge : (1 : ℝ) ≤ (s.card : ℝ) := by exact_mod_cast hpos
    have hmax : max (s.card : ℝ) 1 = (s.card : ℝ) := max_eq_left hge
    rw [hmax] at hμ ⊢
    have hne : (s.card : ℝ) ≠ 0 := by positivity
    rw [← hμ]
    field_simp
    ring

/-- For real numbers `f e` (e ∈ s), with d = max (|s|) 1 and μ = (Σ f e) / d:
    (Σ (f e − μ)²) / d = (Σ (f e)²) / d − μ². -/
theorem centered_sum_div {ι : Type} (s : Finset ι) (f : ι → ℝ) :
    Ideal.div (∑ e ∈ s, (((f e : ℝ) : EReal) - Ideal.div (∑ e ∈ s, ((f e : ℝ) : EReal)) (max (∑ _e ∈ s, (1 : EReal)) 1))
                        * (((f e : ℝ) : EReal) - Ideal.div (∑ e ∈ s, ((f e : ℝ) : EReal)) (max (∑ _e ∈ s, (1 : EReal)) 1)))
        (max (∑ _e ∈ s, (1 : EReal)) 1)
      = Ideal.div (∑ e ∈ s, ((f e : ℝ) : EReal) * ((f e : ℝ) : EReal)) (max (∑ _e ∈ s, (1 : EReal)) 1)
        - Ideal.div (∑ e ∈ s, ((f e : ℝ) : EReal)) (max (∑ _e ∈ s, (1 : EReal)) 1)
          * Ideal.div (∑ e ∈ s, ((f e : ℝ) : EReal)) (max (∑ _e ∈ s, (1 : EReal)) 1) := by
  have hd : max (s.card : ℝ) 1 ≠ 0 := ne_of_gt (lt_of_lt_of_le one_pos (le_max_right _ _))
  -- every quotient is a product with the real reciprocal of the divisor
  rw [divisor_coe s]
  simp only [Ideal.div_coe hd]
  -- the mean is a real number
  rw [sum_coe s f, ← EReal.coe_mul]
  -- so are the deviations, their squares, and the sums of both sides
  simp only [← EReal.coe_sub, ← EReal.coe_mul]
  rw [sum_coe s (fun e => (f e - (∑ e ∈ s, f e) * (1 / max (s.card : ℝ) 1))
        * (f e - (∑ e ∈ s, f e) * (1 / max (s.card : ℝ) 1))),
    sum_coe s (fun e => f e * f e)]
  simp only [← EReal.coe_sub, ← EReal.coe_mul]
  exact congrArg _ (centered_sum_real s f)

end Cert.ClassStats

end
-- ==== Proof.RefMean.lean ====
/-
  The per-class averages of the reference program: the class sums of the features, the class means, the row of means a
  row of the batch is centred by, the sum of squared deviations, and the class variances. The variance is where the
  features must be real numbers: the mean of the squared deviations from the mean is the mean of the squares minus the
  squared mean only among finite values.
-/
import proofs.«400048_j47802986004511_1_alg».proof.Proof.RefCount
import proofs.«400048_j47802986004511_1_alg».proof.Proof.VarianceLaw

noncomputable section

open scoped BigOperators

namespace Cert.ReferenceIdeal.RefValue

open Cert.ReferenceIdeal Cert.ReferenceIdeal.Gen Cert.ReferenceIdeal.Read Cert.ClassStats
open Idealize.ShloMosaic Idealize.ShloMosaic.ValueIdx Idealize.ShloMosaic.RowOps
open Idealize.ShloMosaic.StableHlo.Predicate

/-! ## Sums and means -/

/-- The scatter-add of the weighted features: class c, feature a receives feature a of each member of c. -/
theorem rowSum_at (x0 : (⟨S524288x256, .f32⟩ : BufTy).Contents (Elt Ideal))
    (x1 : (⟨S524288, .i32⟩ : BufTy).Contents (Elt Ideal)) (c : Fin 19) (a : Fin 256) :
    val_main_v15 (F := Ideal) x0 x1 (ix2 c a) = rowSum x0 x1 c.val a := by
  unfold val_main_v15 Host.scatterAdd
  rw [Ideal.hostScatterAdd_def, scatterAdd_rows _ rfl rfl rfl rfl, val_main_v13_apply, val_main_cst_2_apply,
    Ideal.ofBits_def, Ideal.ofBits_zero_f32, zero_add]
  refine sum_landed x1 c (fun e => val_main_v12 (F := Ideal) x0 x1 (ix2 e a)) (fun e => x0 (ix2 e a))
    (fun e he => ?_) (fun e h => ?_)
  · show val_main_v12 (F := Ideal) x0 x1 (ix2 e a) = x0 (ix2 e a)
    rw [val_main_v12_apply, kept_wide, kept, if_neg ((mem_members_iff x1 c e).1 he).2, Ideal.mulf_def, mul_one]
  · show val_main_v12 (F := Ideal) x0 x1 (ix2 e a) = 0
    rw [val_main_v12_apply, kept_wide, kept, if_pos h, Ideal.mulf_def, mul_zero]

/-- The class mean: the class sum over the divisor. -/
theorem mean_at (x0 : (⟨S524288x256, .f32⟩ : BufTy).Contents (Elt Ideal))
    (x1 : (⟨S524288, .i32⟩ : BufTy).Contents (Elt Ideal)) (c : Fin 19) (a : Fin 256) :
    val_main_v18 (F := Ideal) x0 x1 (ix2 c a) = mean x0 x1 c.val a := by
  rw [val_main_v18_apply, rowSum_at, denom_at, Ideal.hostDivf_def]
  rfl

/-! ## The row a batch row is centred by -/

/-- The zero word reads signed as zero. -/
theorem toInt_zero32 : (0#32 : BitVec 32).toInt = 0 := by decide

/-- The index the gather reads for a member of class c: its label is not negative, so it is not wrapped, and it
    names row c. -/
theorem wrapped_at (x1 : (⟨S524288, .i32⟩ : BufTy).Contents (Elt Ideal)) (c : Fin 19) (e : Fin 524288)
    (he : e ∈ members x1 c.val) : lands (val_main_v24 (F := Ideal) x1) e c.val := by
  have hl : (x1 (ix1 e)).toInt = (c.val : Int) := (Finset.mem_filter.1 he).2
  have hne : x1 (ix1 e) ≠ 255#32 := ne255_of_class hl
  have hlt : IntOp.cmpi .slt (x1 (ix1 e)) 0#32 = 0#1 := by
    apply eq_zero_of_ne_one
    rw [IntOp.cmpi_slt, hl, toInt_zero32]
    omega
  show (val_main_v24 (F := Ideal) x1 (ixP e)).toInt = (c.val : Int)
  rw [val_main_v24_apply, show idx_main_v24 (ixP e) = ix1 e from col_row e, val_main_v23_apply, val_main_v20_apply,
    val_main_v19_apply, val_main_c_3_apply, routed_at, routed, if_neg hne, hlt, select_zero]
  exact hl

/-- The gathered row of a member of class c is the row of class c's means. -/
theorem gathered_at (x0 : (⟨S524288x256, .f32⟩ : BufTy).Contents (Elt Ideal))
    (x1 : (⟨S524288, .i32⟩ : BufTy).Contents (Elt Ideal)) (c : Fin 19) (e : Fin 524288) (a : Fin 256)
    (he : e ∈ members x1 c.val) : val_main_v25 (F := Ideal) x0 x1 (ix2 e a) = mean x0 x1 c.val a := by
  unfold val_main_v25
  rw [gather_rows _ rfl rfl rfl rfl rfl rfl _ _ e a (by decide : 0 < 19),
    clampRow_of_lands (by decide : 0 < 19) _ e c (wrapped_at x1 c e he), mean_at]

/-! ## Squared deviations and the variance -/

/-- The scatter-add of the squared weighted deviations: class c, feature a receives the squared deviation from the
    class mean of each member of c. -/
theorem centered_at (x0 : (⟨S524288x256, .f32⟩ : BufTy).Contents (Elt Ideal))
    (x1 : (⟨S524288, .i32⟩ : BufTy).Contents (Elt Ideal)) (c : Fin 19) (a : Fin 256) :
    val_main_v32 (F := Ideal) x0 x1 (ix2 c a)
      = ∑ e ∈ members x1 c.val, (x0 (ix2 e a) - mean x0 x1 c.val a) * (x0 (ix2 e a) - mean x0 x1 c.val a) := by
  unfold val_main_v32 Host.scatterAdd
  rw [Ideal.hostScatterAdd_def, scatterAdd_rows _ rfl rfl rfl rfl, val_main_v30_apply, val_main_cst_5_apply,
    Ideal.ofBits_def, Ideal.ofBits_zero_f32, zero_add]
  refine sum_landed x1 c (fun e => val_main_v29 (F := Ideal) x0 x1 (ix2 e a))
    (fun e => (x0 (ix2 e a) - mean x0 x1 c.val a) * (x0 (ix2 e a) - mean x0 x1 c.val a)) (fun e he => ?_) (fun e h => ?_)
  · show val_main_v29 (F := Ideal) x0 x1 (ix2 e a)
        = (x0 (ix2 e a) - mean x0 x1 c.val a) * (x0 (ix2 e a) - mean x0 x1 c.val a)
    rw [val_main_v29_apply, val_main_v28_apply, val_main_v26_apply, gathered_at x0 x1 c e a he,
      show val_main_v27 (F := Ideal) x1 (ix2 e a) = kept (x1 (ix1 e)) from kept_wide x1 e a, kept,
      if_neg ((mem_members_iff x1 c e).1 he).2]
    simp only [Ideal.mulf_def, Ideal.subf_def, mul_one]
  · show val_main_v29 (F := Ideal) x0 x1 (ix2 e a) = 0
    rw [val_main_v29_apply, val_main_v28_apply,
      show val_main_v27 (F := Ideal) x1 (ix2 e a) = kept (x1 (ix1 e)) from kept_wide x1 e a, kept, if_pos h]
    simp only [Ideal.mulf_def, mul_zero]

/-- The class variance: the mean squared deviation is the mean square minus the squared mean, the features being real. -/
theorem variance_at (x0 : (⟨S524288x256, .f32⟩ : BufTy).Contents (Elt Ideal))
    (x1 : (⟨S524288, .i32⟩ : BufTy).Contents (Elt Ideal)) (hreal : ∀ i, ∃ r : ℝ, x0 i = ((r : ℝ) : EReal))
    (c : Fin 19) (a : Fin 256) :
    val_main_v35 (F := Ideal) x0 x1 (ix2 c a) = variance x0 x1 c.val a := by
  rw [val_main_v35_apply, centered_at, denom_at', Ideal.hostDivf_def]
  obtain ⟨f, hf⟩ : ∃ f : Fin 524288 → ℝ, ∀ e, x0 (ix2 e a) = ((f e : ℝ) : EReal) :=
    ⟨fun e => Classical.choose (hreal (ix2 e a)), fun e => Classical.choose_spec (hreal (ix2 e a))⟩
  unfold Cert.ClassStats.variance Cert.ClassStats.mean Cert.ClassStats.sqSum Cert.ClassStats.rowSum
    Cert.ClassStats.denom Cert.ClassStats.count
  simp only [hf]
  exact centered_sum_div (members x1 c.val) f

end Cert.ReferenceIdeal.RefValue

end
-- ==== Proof.RefValue.lean ====
/-
  The reference program computes the merged class statistics: its three output pieces are the merged covariance, the
  merged mean and the merged amount, and its last operation lays them side by side — columns 0…255, 256…511 and 512.
-/
import proofs.«400048_j47802986004511_1_alg».proof.Proof.RefMean

noncomputable section

open scoped BigOperators

namespace Cert.ReferenceIdeal.RefValue

open Cert.ReferenceIdeal Cert.ReferenceIdeal.Gen Cert.ReferenceIdeal.Read Cert.ClassStats
open Idealize.ShloMosaic Idealize.ShloMosaic.ValueIdx Idealize.ShloMosaic.RowOps
open Idealize.ShloMosaic.StableHlo.Predicate

/-! ## The three pieces -/

/-- The first piece at class c, feature a: the merged covariance. -/
theorem cov_piece (x0 : (⟨S524288x256, .f32⟩ : BufTy).Contents (Elt Ideal)) (x1 : (⟨S524288, .i32⟩ : BufTy).Contents (Elt Ideal))
    (x2 x3 : (⟨S19x256, .f32⟩ : BufTy).Contents (Elt Ideal)) (x4 : (⟨S19, .f32⟩ : BufTy).Contents (Elt Ideal))
    (hreal : ∀ i, ∃ r : ℝ, x0 i = ((r : ℝ) : EReal)) (c : Fin 19) (a : Fin 256) :
    val_main_v57 (F := Ideal) x0 x1 x2 x3 x4 (ix2 c a) = newCov x0 x1 x2 x3 x4 c a := by
  rw [val_main_v57_apply, val_main_v56_apply, val_main_v53_apply, val_main_v55_apply, val_main_v49_apply,
    val_main_v52_apply, val_main_v54_apply, val_main_v48_apply, val_main_v47_apply, val_main_v46_apply,
    show idx_main_v52 (ix2 c a) = ixP c from wide_col c a, wide_col,
    show idx_main_v48 (ix2 c a) = ixP c from wide_col c a, val_main_v45_apply, coweight_at', coweight_at, weight_at,
    variance_at x0 x1 hreal, mean_at]
  simp only [Ideal.addf_def, Ideal.mulf_def, Ideal.subf_def]
  rfl

/-- The second piece at class c, feature a: the merged mean. -/
theorem mean_piece (x0 : (⟨S524288x256, .f32⟩ : BufTy).Contents (Elt Ideal)) (x1 : (⟨S524288, .i32⟩ : BufTy).Contents (Elt Ideal))
    (x2 : (⟨S19x256, .f32⟩ : BufTy).Contents (Elt Ideal)) (x4 : (⟨S19, .f32⟩ : BufTy).Contents (Elt Ideal))
    (c : Fin 19) (a : Fin 256) :
    val_main_v64 (F := Ideal) x0 x1 x2 x4 (ix2 c a) = newMean x0 x1 x2 x4 c a := by
  rw [val_main_v64_apply, val_main_v61_apply, val_main_v63_apply, val_main_v60_apply, val_main_v62_apply,
    show idx_main_v60 (ix2 c a) = ixP c from wide_col c a, show idx_main_v62 (ix2 c a) = ixP c from wide_col c a,
    coweight_at'', weight_at, mean_at]
  simp only [Ideal.addf_def, Ideal.mulf_def]
  rfl

/-! ## Three pieces side by side

Two [19 × 256] pieces and a [19 × 1] piece laid along the columns: column j of the result is column j of the first
piece below 256, column j − 256 of the second below 512, and the one column of the third at 512. -/

theorem side_first (h : Shape.Concatenates [S19x256, S19x256, S19x1] S19x513 1) (p q : S19x256.Idx → EReal)
    (r : S19x1.Idx → EReal) (c : Fin 19) (j : Fin 513) (h1 : j.val < 256) :
    concatenate S19x513 1 [⟨S19x256, p⟩, ⟨S19x256, q⟩, ⟨S19x1, r⟩] h (ix2 c j) = p (ix2 c ⟨j.val, h1⟩) :=
  concatenate_apply_piece (1 : Fin S19x513.rank) [⟨S19x256, p⟩, ⟨S19x256, q⟩, ⟨S19x1, r⟩] h (ix2 c j) 0 (by simp)
    S19x256 p rfl rfl 0 rfl (ix2 c ⟨j.val, h1⟩)
    (fun b hb => by
      match b, hb with
      | ⟨0, _⟩, _ => rfl
      | ⟨1, _⟩, hb => exact absurd (Fin.ext rfl) hb)
    (Nat.zero_add _)

theorem side_second (h : Shape.Concatenates [S19x256, S19x256, S19x1] S19x513 1) (p q : S19x256.Idx → EReal)
    (r : S19x1.Idx → EReal) (c : Fin 19) (j : Fin 513) (ha : j.val - 256 < 256) (h1 : 256 ≤ j.val) :
    concatenate S19x513 1 [⟨S19x256, p⟩, ⟨S19x256, q⟩, ⟨S19x1, r⟩] h (ix2 c j) = q (ix2 c ⟨j.val - 256, ha⟩) :=
  concatenate_apply_piece (1 : Fin S19x513.rank) [⟨S19x256, p⟩, ⟨S19x256, q⟩, ⟨S19x1, r⟩] h (ix2 c j) 1 (by simp)
    S19x256 q rfl rfl 256 rfl (ix2 c ⟨j.val - 256, ha⟩)
    (fun b hb => by
      match b, hb with
      | ⟨0, _⟩, _ => rfl
      | ⟨1, _⟩, hb => exact absurd (Fin.ext rfl) hb)
    (by show 256 + (j.val - 256) = j.val; omega)

theorem side_third (h : Shape.Concatenates [S19x256, S19x256, S19x1] S19x513 1) (p q : S19x256.Idx → EReal)
    (r : S19x1.Idx → EReal) (c : Fin 19) (j : Fin 513) (hj : j.val = 512) :
    concatenate S19x513 1 [⟨S19x256, p⟩, ⟨S19x256, q⟩, ⟨S19x1, r⟩] h (ix2 c j) = r (ixP c) :=
  concatenate_apply_piece (1 : Fin S19x513.rank) [⟨S19x256, p⟩, ⟨S19x256, q⟩, ⟨S19x1, r⟩] h (ix2 c j) 2 (by simp)
    S19x1 r rfl rfl 512 rfl (ixP c)
    (fun b hb => by
      match b, hb with
      | ⟨0, _⟩, _ => rfl
      | ⟨1, _⟩, hb => exact absurd (Fin.ext rfl) hb)
    (by show 512 + 0 = j.val; omega)

/-! ## The reference is the specification -/

/-- The reference program's result is the merged statistics. -/
theorem reference_is_merged
    (x0 : (⟨S524288x256, .f32⟩ : BufTy).Contents (Elt Ideal)) (x1 : (⟨S524288, .i32⟩ : BufTy).Contents (Elt Ideal))
    (x2 x3 : (⟨S19x256, .f32⟩ : BufTy).Contents (Elt Ideal)) (x4 : (⟨S19, .f32⟩ : BufTy).Contents (Elt Ideal))
    (hreal : ∀ i, ∃ r : ℝ, x0 i = ((r : ℝ) : EReal)) :
    Cert.ReferenceIdeal.Read.val_main_v67 (F := Ideal) x0 x1 x2 x3 x4 = Cert.ClassStats.merged x0 x1 x2 x3 x4 := by
  funext i
  obtain ⟨c, j, rfl⟩ : ∃ (c : Fin 19) (j : Fin 513), i = ix2 c j := ⟨i 0, i 1, eq_ix2 i⟩
  by_cases h1 : j.val < 256
  · -- a covariance column: the first piece, at the same column
    rw [merged_cov x0 x1 x2 x3 x4 c j ⟨j.val, h1⟩ rfl, ← cov_piece x0 x1 x2 x3 x4 hreal c ⟨j.val, h1⟩]
    unfold val_main_v67
    exact side_first _ _ _ _ c j h1
  · by_cases h2 : j.val < 512
    · -- a mean column: the second piece, 256 columns to the left
      have ha : j.val - 256 < 256 := by omega
      rw [merged_mean x0 x1 x2 x3 x4 c j ⟨j.val - 256, ha⟩ (by show j.val = 256 + (j.val - 256); omega),
        ← mean_piece x0 x1 x2 x4 c ⟨j.val - 256, ha⟩]
      unfold val_main_v67
      exact side_second _ _ _ _ c j ha (by omega)
    · -- the amount column: the third piece, its one column
      have hj : j.val = 512 := by have := j.isLt; omega
      rw [merged_amount x0 x1 x2 x3 x4 c j hj, ← amount_piece x1 x4 c]
      unfold val_main_v67
      exact side_third _ _ _ _ c j hj

end Cert.ReferenceIdeal.RefValue

end
-- ==== Proof.lean ====
/-
  Per-class running statistics merged with stored ones, computed two ways, are one function of the arguments.

  The kernel sweeps the 524288 feature rows in 64 tiles of 8192. In each tile it forms the one-hot matrix of the labels
  against the class numbers 0 … 23 and accumulates, by two matrix products and a row sum, the per-class sums of the
  features, of their squares, and the per-class counts in three buffers carried across the grid; after the last tile it
  takes classes 0 … 18 and merges mean, variance (mean of squares minus squared mean) and count with the stored mean,
  covariance and amount by the weight count / (count + amount). The reference masks the label 255, scatter-adds counts
  and feature sums per class, gathers each row's class mean, scatter-adds the squared deviations, and merges in the
  same way. Over the extended reals both are `ClassStats.merged`: a label outside 0 … 18 lands in no class on either
  side (the kernel's padded classes 19 … 23 are dropped, the reference's scatter drops it; a 255 is routed to class 0
  with weight 0), a one-hot product with 0 or 1 selects the rows of the class, and for real features the mean squared
  deviation is the mean of squares minus the squared mean with the divisor max(count, 1) on both sides — the one place
  the precondition (every feature finite) is used. The self-comparison w ≠ w that guards the weight is false of every
  extended real, in the kernel's ordered form and in the reference's unordered form alike.

  The three frames: the two kernel programs' are their generated frame certificates; the reference's is its run with
  the result dropped. The idealization rewrote nothing, so there is nothing to preserve. The equivalence sets the
  kernel's run, whose result array is the specification (KValue), beside the reference's run, whose result term is the
  specification (RefValue), at arguments that agree.
-/
import proofs.«400048_j47802986004511_1_alg».proof.Defs
import proofs.«400048_j47802986004511_1_alg».proof.Proof.Gen.Kernel
import proofs.«400048_j47802986004511_1_alg».proof.Proof.Gen.Kernel.Skeleton
import proofs.«400048_j47802986004511_1_alg».proof.Proof.Gen.Kernel.Launch
import proofs.«400048_j47802986004511_1_alg».proof.Proof.Gen.Kernel.Points
import proofs.«400048_j47802986004511_1_alg».proof.Proof.Gen.Kernel.Frame
import proofs.«400048_j47802986004511_1_alg».proof.Proof.Gen.KernelIdeal
import proofs.«400048_j47802986004511_1_alg».proof.Proof.Gen.KernelIdeal.Skeleton
import proofs.«400048_j47802986004511_1_alg».proof.Proof.Gen.KernelIdeal.Launch
import proofs.«400048_j47802986004511_1_alg».proof.Proof.Gen.KernelIdeal.Points
import proofs.«400048_j47802986004511_1_alg».proof.Proof.Gen.KernelIdeal.Frame
import proofs.«400048_j47802986004511_1_alg».proof.Proof.Gen.ReferenceIdeal
import proofs.«400048_j47802986004511_1_alg».proof.Proof.Gen.Pre_finite_inputs
import proofs.«400048_j47802986004511_1_alg».proof.Proof.Gen.KernelIdeal.Value
import proofs.«400048_j47802986004511_1_alg».proof.Proof.Gen.ReferenceIdeal.Run
import proofs.«400048_j47802986004511_1_alg».proof.Proof.Gen.ReferenceIdeal.Read
import proofs.«400048_j47802986004511_1_alg».proof.Proof.Finite
import proofs.«400048_j47802986004511_1_alg».proof.Proof.KValue
import proofs.«400048_j47802986004511_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the ideal instance. -/
theorem frame_kernel_ideal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, of which the features are finite, the kernel's result array and the reference's result
    are the same merged statistics. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, (hagree c).1, (hagree c).2.1, (hagree c).2.2.1, (hagree c).2.2.2.1,
    (hagree c).2.2.2.2]
  exact Cert.ReferenceIdeal.RefValue.reference_is_merged _ _ _ _ _
    (Cert.ClassStats.features_real _ _ _ _ _ (hpre c))

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
